-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2000000 : Shape := ⟨2, ![2, 2000000]⟩
abbrev S2000000 : Shape := ⟨1, ![2000000]⟩
abbrev S100000x64 : Shape := ⟨2, ![100000, 64]⟩
abbrev S50000x64 : Shape := ⟨2, ![50000, 64]⟩
abbrev S_ : Shape := ⟨0, ![]⟩

class Facts : Prop where
  bcast_S_S2000000 : S_.BroadcastsInDim S2000000 (![] : Fin 0 → Fin S2000000.rank)
  reducesTo_S2000000_S_d0 : S2000000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S50000x64 : S_.BroadcastsInDim S50000x64 (![] : Fin 0 → Fin S50000x64.rank)
  reducesTo_S50000x64_S_d0_1 : S50000x64.ReducesTo [0, 1] S_

variable [Facts]

def fn {F : FTy → Type} [FloatOps F] (main_arg0 : IVec S2x2000000 32) (main_arg1 : FVec F S2000000 .f32) (main_arg2 : FVec F S100000x64 .f32) (main_arg3 : FVec F S50000x64 .f32) : IVec S_ 1 :=
  let main_v0 : FVec F S2000000 .f32 := Host.absf main_arg1
  let main_cst : FVec F S_ .f32 := constant S_ .f32 0x7F800000#32
  let main_v1 : FVec F S2000000 .f32 := broadcastInDim S2000000 ![] bcast_S_S2000000 main_cst
  let main_v2 : IVec S2000000 1 := cmpf .olt main_v0 main_v1
  let main_c : IVec S_ 1 := constantI S_ 1 1#1
  let main_v3 : IVec S_ 1 := (fun x v => Host.reduce IntOp.andi x v reducesTo_S2000000_S_d0 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S50000x64 .f32 := Host.absf main_arg3
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  main_v13
-- ==== Kernel.lean ====
abbrev S2x2000000 : Shape := ⟨2, ![2, 2000000]⟩
abbrev S2000000 : Shape := ⟨1, ![2000000]⟩
abbrev S100000x64 : Shape := ⟨2, ![100000, 64]⟩
abbrev S50000x64 : Shape := ⟨2, ![50000, 64]⟩
abbrev S1x2000000 : Shape := ⟨2, ![1, 2000000]⟩
abbrev S150000x64 : Shape := ⟨2, ![150000, 64]⟩
abbrev S2000000x1 : Shape := ⟨2, ![2000000, 1]⟩
abbrev S_ : Shape := ⟨0, ![]⟩
abbrev S2000000x64 : Shape := ⟨2, ![2000000, 64]⟩
abbrev S8000x64 : Shape := ⟨2, ![8000, 64]⟩
abbrev S8000x1 : Shape := ⟨2, ![8000, 1]⟩
abbrev S10000x64 : Shape := ⟨2, ![10000, 64]⟩

abbrev nBuf : Space → Nat
  | .hbm => 57
  | .vmem => 36
  | .smem => 0
  | _ => 0

abbrev bufTy : (tb : Table) → Fin (tcTables nBuf tb) → BufTy
  | .hbm, ⟨0, _⟩ => ⟨S2x2000000, .i32⟩
  | .hbm, ⟨1, _⟩ => ⟨S2000000, .f32⟩
  | .hbm, ⟨2, _⟩ => ⟨S100000x64, .f32⟩
  | .hbm, ⟨3, _⟩ => ⟨S50000x64, .f32⟩
  | .hbm, ⟨4, _⟩ => ⟨S1x2000000, .i32⟩
  | .hbm, ⟨5, _⟩ => ⟨S2000000, .i32⟩
  | .hbm, ⟨6, _⟩ => ⟨S1x2000000, .i32⟩
  | .hbm, ⟨7, _⟩ => ⟨S2000000, .i32⟩
  | .hbm, ⟨8, _⟩ => ⟨S150000x64, .f32⟩
  | .hbm, ⟨9, _⟩ => ⟨S2000000x1, .f32⟩
  | .hbm, ⟨10, _⟩ => ⟨S_, .i32⟩
  | .hbm, ⟨11, _⟩ => ⟨S2000000, .i32⟩
  | .hbm, ⟨12, _⟩ => ⟨S2000000, .i1⟩
  | .hbm, ⟨13, _⟩ => ⟨S_, .i32⟩
  | .hbm, ⟨14, _⟩ => ⟨S2000000, .i32⟩
  | .hbm, ⟨15, _⟩ => ⟨S2000000, .i32⟩
  | .hbm, ⟨16, _⟩ => ⟨S2000000, .i32⟩
  | .hbm, ⟨17, _⟩ => ⟨S2000000x1, .i32⟩
  | .hbm, ⟨18, _⟩ => ⟨S2000000x64, .f32⟩
  | .hbm, ⟨19, _⟩ => ⟨S2000000x64, .f32⟩
  | .hbm, ⟨20, _⟩ => ⟨S_, .f32⟩
  | .hbm, ⟨21, _⟩ => ⟨S150000x64, .f32⟩
  | .hbm, ⟨22, _⟩ => ⟨S2000000x1, .i32⟩
  | .hbm, ⟨23, _⟩ => ⟨S150000x64, .f32⟩
  | .hbm, ⟨24, _⟩ => ⟨S150000x64, .f32⟩
  | .hbm, ⟨25, _⟩ => ⟨S_, .i32⟩
  | .hbm, ⟨26, _⟩ => ⟨S2000000, .i32⟩
  | .hbm, ⟨27, _⟩ => ⟨S2000000, .i1⟩
  | .hbm, ⟨28, _⟩ => ⟨S_, .i32⟩
  | .hbm, ⟨29, _⟩ => ⟨S2000000, .i32⟩
  | .hbm, ⟨30, _⟩ => ⟨S2000000, .i32⟩
  | .hbm, ⟨31, _⟩ => ⟨S2000000, .i32⟩
  | .hbm, ⟨32, _⟩ => ⟨S2000000x1, .i32⟩
  | .hbm, ⟨33, _⟩ => ⟨S2000000x64, .f32⟩
  | .hbm, ⟨34, _⟩ => ⟨S2000000x64, .f32⟩
  | .hbm, ⟨35, _⟩ => ⟨S_, .f32⟩
  | .hbm, ⟨36, _⟩ => ⟨S150000x64, .f32⟩
  | .hbm, ⟨37, _⟩ => ⟨S2000000x1, .i32⟩
  | .hbm, ⟨38, _⟩ => ⟨S150000x64, .f32⟩
  | .hbm, ⟨39, _⟩ => ⟨S150000x64, .f32⟩
  | .hbm, ⟨40, _⟩ => ⟨S_, .i32⟩
  | .hbm, ⟨41, _⟩ => ⟨S2000000, .i32⟩
  | .hbm, ⟨42, _⟩ => ⟨S2000000, .i1⟩
  | .hbm, ⟨43, _⟩ => ⟨S_, .i32⟩
  | .hbm, ⟨44, _⟩ => ⟨S2000000, .i32⟩
  | .hbm, ⟨45, _⟩ => ⟨S2000000, .i32⟩
  | .hbm, ⟨46, _⟩ => ⟨S2000000, .i32⟩
  | .hbm, ⟨47, _⟩ => ⟨S2000000x1, .i32⟩
  | .hbm, ⟨48, _⟩ => ⟨S2000000x64, .f32⟩
  | .hbm, ⟨49, _⟩ => ⟨S2000000x64, .f32⟩
  | .hbm, ⟨50, _⟩ => ⟨S_, .f32⟩
  | .hbm, ⟨51, _⟩ => ⟨S150000x64, .f32⟩
  | .hbm, ⟨52, _⟩ => ⟨S2000000x1, .i32⟩
  | .hbm, ⟨53, _⟩ => ⟨S150000x64, .f32⟩
  | .hbm, ⟨54, _⟩ => ⟨S150000x64, .f32⟩
  | .hbm, ⟨55, _⟩ => ⟨S100000x64, .f32⟩
  | .hbm, ⟨56, _⟩ => ⟨S50000x64, .f32⟩
  | .local _ .vmem, ⟨0, _⟩ => ⟨S8000x64, .f32⟩
  | .local _ .vmem, ⟨1, _⟩ => ⟨S8000x64, .f32⟩
  | .local _ .vmem, ⟨2, _⟩ => ⟨S8000x1, .f32⟩
  | .local _ .vmem, ⟨3, _⟩ => ⟨S8000x1, .f32⟩
  | .local _ .vmem, ⟨4, _⟩ => ⟨S8000x64, .f32⟩
  | .local _ .vmem, ⟨5, _⟩ => ⟨S8000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S8000x64, .f32⟩
  | .local _ .vmem, ⟨13, _⟩ => ⟨S8000x64, .f32⟩
  | .local _ .vmem, ⟨14, _⟩ => ⟨S8000x1, .f32⟩
  | .local _ .vmem, ⟨15, _⟩ => ⟨S8000x1, .f32⟩
  | .local _ .vmem, ⟨16, _⟩ => ⟨S8000x64, .f32⟩
  | .local _ .vmem, ⟨17, _⟩ => ⟨S8000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S8000x64, .f32⟩
  | .local _ .vmem, ⟨25, _⟩ => ⟨S8000x64, .f32⟩
  | .local _ .vmem, ⟨26, _⟩ => ⟨S8000x1, .f32⟩
  | .local _ .vmem, ⟨27, _⟩ => ⟨S8000x1, .f32⟩
  | .local _ .vmem, ⟨28, _⟩ => ⟨S8000x64, .f32⟩
  | .local _ .vmem, ⟨29, _⟩ => ⟨S8000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | _, _ => ⟨S2x2000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![15], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![250], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![15], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  concatenates_S100000x64_S50000x64_S150000x64_d0 : Shape.Concatenates [S100000x64, S50000x64] S150000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  bcast_S_S150000x64 : S_.BroadcastsInDim S150000x64 (![] : Fin 0 → Fin S150000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  slices_S150000x64_S100000x64_0_0 : S150000x64.Slices ![0, 0] S100000x64
  slices_S150000x64_S50000x64_100000_0 : S150000x64.Slices ![100000, 0] S50000x64
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S2000000x64.size a
  hwx0_0 : ∀ i : grid0.Coords, EltTy.bits .f32 = 32 ∨ (Rect.block (s := S2000000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S2000000x1.size a
  hwx0_1 : ∀ i : grid0.Coords, EltTy.bits .f32 = 32 ∨ (Rect.block (s := S2000000x1) S8000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S2000000x64.size a
  hwx0_2 : ∀ i : grid0.Coords, EltTy.bits .f32 = 32 ∨ (Rect.block (s := S2000000x64) S8000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S150000x64.size a
  hwx1_0 : ∀ i : grid1.Coords, EltTy.bits .f32 = 32 ∨ (Rect.block (s := S150000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S150000x64.size a
  hwx1_1 : ∀ i : grid1.Coords, EltTy.bits .f32 = 32 ∨ (Rect.block (s := S150000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S150000x64.size a
  hwx1_2 : ∀ i : grid1.Coords, EltTy.bits .f32 = 32 ∨ (Rect.block (s := S150000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S2000000x64.size a
  hwx2_0 : ∀ i : grid2.Coords, EltTy.bits .f32 = 32 ∨ (Rect.block (s := S2000000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x1.size a ≤ S2000000x1.size a
  hwx2_1 : ∀ i : grid2.Coords, EltTy.bits .f32 = 32 ∨ (Rect.block (s := S2000000x1) S8000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S2000000x64.size a
  hwx2_2 : ∀ i : grid2.Coords, EltTy.bits .f32 = 32 ∨ (Rect.block (s := S2000000x64) S8000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S150000x64.size a
  hwx3_0 : ∀ i : grid3.Coords, EltTy.bits .f32 = 32 ∨ (Rect.block (s := S150000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S150000x64.size a
  hwx3_1 : ∀ i : grid3.Coords, EltTy.bits .f32 = 32 ∨ (Rect.block (s := S150000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S150000x64.size a
  hwx3_2 : ∀ i : grid3.Coords, EltTy.bits .f32 = 32 ∨ (Rect.block (s := S150000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S2000000x64.size a
  hwx4_0 : ∀ i : grid4.Coords, EltTy.bits .f32 = 32 ∨ (Rect.block (s := S2000000x64) S8000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x1.size a ≤ S2000000x1.size a
  hwx4_1 : ∀ i : grid4.Coords, EltTy.bits .f32 = 32 ∨ (Rect.block (s := S2000000x1) S8000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x64.size a ≤ S2000000x64.size a
  hwx4_2 : ∀ i : grid4.Coords, EltTy.bits .f32 = 32 ∨ (Rect.block (s := S2000000x64) S8000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S150000x64.size a
  hwx5_0 : ∀ i : grid5.Coords, EltTy.bits .f32 = 32 ∨ (Rect.block (s := S150000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S150000x64.size a
  hwx5_1 : ∀ i : grid5.Coords, EltTy.bits .f32 = 32 ∨ (Rect.block (s := S150000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S150000x64.size a
  hwx5_2 : ∀ i : grid5.Coords, EltTy.bits .f32 = 32 ∨ (Rect.block (s := S150000x64) S10000x64.size (cc5_transform_2 i) (hinb5_2 i)).WholeWords (EltTy.packing .f32)

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf

abbrev win0_0 : Pipeline.Window sig grid0 :=
  Pipeline.Window.ofSpec (Memref.whole main_v12) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S8000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v24) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S8000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S8000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v17) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v36) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S8000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v37) S8000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v29) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v40) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v41) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S2x2000000 : Shape := ⟨2, ![2, 2000000]⟩
abbrev S2000000 : Shape := ⟨1, ![2000000]⟩
abbrev S100000x64 : Shape := ⟨2, ![100000, 64]⟩
abbrev S50000x64 : Shape := ⟨2, ![50000, 64]⟩
abbrev S1x2000000 : Shape := ⟨2, ![1, 2000000]⟩
abbrev S150000x64 : Shape := ⟨2, ![150000, 64]⟩
abbrev S_ : Shape := ⟨0, ![]⟩
abbrev S2000000x1 : Shape := ⟨2, ![2000000, 1]⟩
abbrev S2000000x64 : Shape := ⟨2, ![2000000, 64]⟩

abbrev nBuf : Space → Nat
  | .hbm => 65
  | .vmem => 0
  | .smem => 0
  | _ => 0

abbrev bufTy : (tb : Table) → Fin (tcTables nBuf tb) → BufTy
  | .hbm, ⟨0, _⟩ => ⟨S2x2000000, .i32⟩
  | .hbm, ⟨1, _⟩ => ⟨S2000000, .f32⟩
  | .hbm, ⟨2, _⟩ => ⟨S100000x64, .f32⟩
  | .hbm, ⟨3, _⟩ => ⟨S50000x64, .f32⟩
  | .hbm, ⟨4, _⟩ => ⟨S1x2000000, .i32⟩
  | .hbm, ⟨5, _⟩ => ⟨S2000000, .i32⟩
  | .hbm, ⟨6, _⟩ => ⟨S1x2000000, .i32⟩
  | .hbm, ⟨7, _⟩ => ⟨S2000000, .i32⟩
  | .hbm, ⟨8, _⟩ => ⟨S150000x64, .f32⟩
  | .hbm, ⟨9, _⟩ => ⟨S_, .i32⟩
  | .hbm, ⟨10, _⟩ => ⟨S2000000, .i32⟩
  | .hbm, ⟨11, _⟩ => ⟨S2000000, .i1⟩
  | .hbm, ⟨12, _⟩ => ⟨S_, .i32⟩
  | .hbm, ⟨13, _⟩ => ⟨S2000000, .i32⟩
  | .hbm, ⟨14, _⟩ => ⟨S2000000, .i32⟩
  | .hbm, ⟨15, _⟩ => ⟨S2000000, .i32⟩
  | .hbm, ⟨16, _⟩ => ⟨S2000000x1, .i32⟩
  | .hbm, ⟨17, _⟩ => ⟨S2000000x64, .f32⟩
  | .hbm, ⟨18, _⟩ => ⟨S2000000x1, .f32⟩
  | .hbm, ⟨19, _⟩ => ⟨S2000000x64, .f32⟩
  | .hbm, ⟨20, _⟩ => ⟨S2000000x64, .f32⟩
  | .hbm, ⟨21, _⟩ => ⟨S_, .f32⟩
  | .hbm, ⟨22, _⟩ => ⟨S150000x64, .f32⟩
  | .hbm, ⟨23, _⟩ => ⟨S2000000x1, .i32⟩
  | .hbm, ⟨24, _⟩ => ⟨S150000x64, .f32⟩
  | .hbm, ⟨25, _⟩ => ⟨S150000x64, .f32⟩
  | .hbm, ⟨26, _⟩ => ⟨S_, .i32⟩
  | .hbm, ⟨27, _⟩ => ⟨S2000000, .i32⟩
  | .hbm, ⟨28, _⟩ => ⟨S2000000, .i1⟩
  | .hbm, ⟨29, _⟩ => ⟨S_, .i32⟩
  | .hbm, ⟨30, _⟩ => ⟨S2000000, .i32⟩
  | .hbm, ⟨31, _⟩ => ⟨S2000000, .i32⟩
  | .hbm, ⟨32, _⟩ => ⟨S2000000, .i32⟩
  | .hbm, ⟨33, _⟩ => ⟨S2000000x1, .i32⟩
  | .hbm, ⟨34, _⟩ => ⟨S2000000x64, .f32⟩
  | .hbm, ⟨35, _⟩ => ⟨S2000000x1, .f32⟩
  | .hbm, ⟨36, _⟩ => ⟨S2000000x64, .f32⟩
  | .hbm, ⟨37, _⟩ => ⟨S2000000x64, .f32⟩
  | .hbm, ⟨38, _⟩ => ⟨S_, .f32⟩
  | .hbm, ⟨39, _⟩ => ⟨S150000x64, .f32⟩
  | .hbm, ⟨40, _⟩ => ⟨S2000000x1, .i32⟩
  | .hbm, ⟨41, _⟩ => ⟨S150000x64, .f32⟩
  | .hbm, ⟨42, _⟩ => ⟨S150000x64, .f32⟩
  | .hbm, ⟨43, _⟩ => ⟨S_, .i32⟩
  | .hbm, ⟨44, _⟩ => ⟨S2000000, .i32⟩
  | .hbm, ⟨45, _⟩ => ⟨S2000000, .i1⟩
  | .hbm, ⟨46, _⟩ => ⟨S_, .i32⟩
  | .hbm, ⟨47, _⟩ => ⟨S2000000, .i32⟩
  | .hbm, ⟨48, _⟩ => ⟨S2000000, .i32⟩
  | .hbm, ⟨49, _⟩ => ⟨S2000000, .i32⟩
  | .hbm, ⟨50, _⟩ => ⟨S2000000x1, .i32⟩
  | .hbm, ⟨51, _⟩ => ⟨S2000000x64, .f32⟩
  | .hbm, ⟨52, _⟩ => ⟨S2000000x1, .f32⟩
  | .hbm, ⟨53, _⟩ => ⟨S2000000x64, .f32⟩
  | .hbm, ⟨54, _⟩ => ⟨S2000000x64, .f32⟩
  | .hbm, ⟨55, _⟩ => ⟨S_, .f32⟩
  | .hbm, ⟨56, _⟩ => ⟨S150000x64, .f32⟩
  | .hbm, ⟨57, _⟩ => ⟨S2000000x1, .i32⟩
  | .hbm, ⟨58, _⟩ => ⟨S150000x64, .f32⟩
  | .hbm, ⟨59, _⟩ => ⟨S150000x64, .f32⟩
  | .hbm, ⟨60, _⟩ => ⟨S_, .f32⟩
  | .hbm, ⟨61, _⟩ => ⟨S150000x64, .f32⟩
  | .hbm, ⟨62, _⟩ => ⟨S150000x64, .f32⟩
  | .hbm, ⟨63, _⟩ => ⟨S100000x64, .f32⟩
  | .hbm, ⟨64, _⟩ => ⟨S50000x64, .f32⟩
  | _, _ => ⟨S2x2000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  concatenates_S100000x64_S50000x64_S150000x64_d0 : Shape.Concatenates [S100000x64, S50000x64] S150000x64 0
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf

class Facts : Prop extends Facts₀ where

variable [Facts]
-- ==== Proof.Scale0.lean ====
/-
  The first scaling launch: every row of the gathered message table is multiplied by that row's edge
  weight. The launch walks 250 blocks of 8000 rows; block t of the result is rows 8000·t … 8000·t + 7999 of
  the row-scaled table, and the 250 blocks tile all 2,000,000 rows, so after the launch the result array
  is the whole table with row r scaled by weight r.
-/
import proofs.«113412_j12257836662828_1_alg».proof.Proof.Gen.KernelIdeal.Frame
import Idealize.ShloMosaic.Lib.Pipeline.Value
import Idealize.ShloMosaic.Lib.ValueIdx

set_option maxRecDepth 16384

noncomputable section

namespace Cert.KernelIdeal.Scale0

open Idealize.ShloMosaic Idealize.ShloMosaic.TcCoe Idealize.SL.Sem
open Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

theorem origin2 : (![0, 0] : Fin 2 → Nat) = fun _ => 0 := funext fun a => by fin_cases a <;> rfl

/-- A column of 2,000,000 entries spreads along rows of 64. -/
theorem spreads : S2000000x1.Broadcasts S2000000x64 := by decide

/-- Row r of `a` times the single entry of row r of the column `b`. -/
abbrev rowScaled (a : S2000000x64.Idx → Elt F .f32) (b : S2000000x1.Idx → Elt F .f32) : S2000000x64.Idx → Elt F .f32 :=
  fun i => FloatOps.mulf (a i) (broadcastTo S2000000x64 b spreads i)

/-- The body multiplies its block of the table by its block of the weight column, spread along the row. -/
theorem pay_eq (x0 : Vec F S8000x64 .f32) (x1 : Vec F S8000x1 .f32) :
    k0_pay1 x0 x1 = mulf x0 (broadcastTo S8000x64 x1 broadcasts_S8000x1_S8000x64) := by
  unfold k0_pay1
  simp only [shapeCast_self]

/-- Spreading a one-column block along its rows: entry (r, k) is the column's entry r. -/
theorem spread_block (x1 : Vec F S8000x1 .f32) (j : S8000x64.Idx) :
    broadcastTo S8000x64 x1 broadcasts_S8000x1_S8000x64 j = x1 (ValueIdx.ix2 (n0 := 8000) (n1 := 1) (j 0) 0) :=
  broadcastTo_apply x1 _ j _ (fun a => by match a with | ⟨0, _⟩ => rfl | ⟨1, _⟩ => rfl)

/-- The same for the whole column of 2,000,000 weights. -/
theorem spread_all (b : S2000000x1.Idx → Elt F .f32) (h : S2000000x1.Broadcasts S2000000x64) (i : S2000000x64.Idx) :
    broadcastTo S2000000x64 b h i = b (ValueIdx.ix2 (n0 := 2000000) (n1 := 1) (i 0) 0) :=
  broadcastTo_apply b _ i _ (fun a => by match a with | ⟨0, _⟩ => rfl | ⟨1, _⟩ => rfl)

/-- Where block t of each window sits: all three move down the rows together, one block of 8000 rows per point. -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem flushed_eq (c : Dev nD) (t : Fin cfg0.N) :
    (dat0 V c).flushed 2 t = ((cfg0.win 2).blk t).view.read (Elt F) (rowScaled (V c main_v12) (V c main_v5)) := by
  show (cfg0.win 2).cut (grid0.coords t) ((dat0 V c).after 2 t) = _
  rw [after0_2]
  unfold out0_2
  rw [View.canon_unit_zero origin2]
  simp only [View.ld_unit_zero (S := S8000x64) origin2, View.ld_unit_zero (S := S8000x1) origin2]
  rw [pay_eq]
  obtain ⟨e0, e1, e2, e3, e4, e5⟩ := block_index t
  funext j
  show FloatOps.mulf (V c main_v12 (((cfg0.win 0).blk t).view.emb j)) (broadcastTo S8000x64 (iblk0 V c 1 t) broadcasts_S8000x1_S8000x64 j)
     = FloatOps.mulf (V c main_v12 (((cfg0.win 2).blk t).view.emb j)) (broadcastTo S2000000x64 (V c main_v5) spreads (((cfg0.win 2).blk t).view.emb j))
  rw [spread_block, spread_all]
  show FloatOps.mulf (V c main_v12 (((cfg0.win 0).blk t).view.emb j)) (V c main_v5 (((cfg0.win 1).blk t).view.emb (ValueIdx.ix2 (n0 := 8000) (n1 := 1) (j 0) 0)))
     = FloatOps.mulf (V c main_v12 (((cfg0.win 2).blk t).view.emb j)) (V c main_v5 (ValueIdx.ix2 (n0 := 2000000) (n1 := 1) ((((cfg0.win 2).blk t).view.emb j) 0) 0))
  have h0 : ((cfg0.win 0).blk t).view.emb j = ((cfg0.win 2).blk t).view.emb j := by
    funext a; apply Fin.ext
    match a with
    | ⟨0, _⟩ => show win0_0.index t (0 : Fin 2) * 8000 + 1 * (j 0).val = win0_2.index t (0 : Fin 2) * 8000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (ValueIdx.ix2 (n0 := 8000) (n1 := 1) (j 0) 0) = ValueIdx.ix2 (n0 := 2000000) (n1 := 1) ((((cfg0.win 2).blk t).view.emb j) 0) 0 := by
    funext a; apply Fin.ext
    match a with
    | ⟨0, _⟩ => show win0_1.index t (0 : Fin 2) * 8000 + 1 * (j 0).val = win0_2.index t (0 : Fin 2) * 8000 + 1 * (j 0).val; omega
    | ⟨1, _⟩ => show win0_1.index t (1 : Fin 2) * 1 + 1 * 0 = 0; omega
  rw [h0, h1]

/-- An index lies in point t's block of the result iff each coordinate lies in the block's range on its axis. -/
theorem mem_blk (t : Fin cfg0.N) (i : S2000000x64.Idx) :
    i ∈ ((cfg0.win 2).blk t).view.set ↔ ∀ a : Fin 2, win0_2.index t a * S8000x64.size a ≤ (i a).val ∧ (i a).val < win0_2.index t a * S8000x64.size a + S8000x64.size a := by
  show i ∈ ((View.whole main_v13).slice (win0_2.rect t)).set ↔ _
  rw [View.set_slice_whole, Rect.mem_set_unit]
  exact Iff.rfl

/-- Every row belongs to the block of the point numbered by the row's quotient by 8000. -/
theorem covered (i : S2000000x64.Idx) : ∃ t : Fin cfg0.N, (cfg0.win 2).flush t = true ∧ i ∈ ((cfg0.win 2).blk t).view.set := by
  have hi0 : (i 0).val < 2000000 := (i 0).isLt
  have hi1 : (i 1).val < 64 := (i 1).isLt
  have hN : (i 0).val / 8000 < cfg0.N := by
    show (i 0).val / 8000 < grid0.N
    rw [N_0]; omega
  obtain ⟨e0, e1, e2, e3, e4, e5⟩ := block_index ⟨(i 0).val / 8000, hN⟩
  refine ⟨⟨(i 0).val / 8000, hN⟩, flush0_2 _, ?_⟩
  rw [mem_blk]
  intro a
  match a with
  | ⟨0, _⟩ =>
    show win0_2.index ⟨(i 0).val / 8000, hN⟩ (0 : Fin 2) * 8000 ≤ (i 0).val ∧ (i 0).val < win0_2.index ⟨(i 0).val / 8000, hN⟩ (0 : Fin 2) * 8000 + 8000
    rw [e4]
    show (i 0).val / 8000 * 8000 ≤ (i 0).val ∧ (i 0).val < (i 0).val / 8000 * 8000 + 8000
    omega
  | ⟨1, _⟩ =>
    show win0_2.index ⟨(i 0).val / 8000, hN⟩ (1 : Fin 2) * 64 ≤ (i 1).val ∧ (i 1).val < win0_2.index ⟨(i 0).val / 8000, hN⟩ (1 : Fin 2) * 64 + 64
    rw [e5]
    omega

/-- After the launch the result array is the whole table, row r scaled by weight r. -/
theorem result_array (c : Dev nD) : (dat0 V c).arrAt 2 cfg0.N = rowScaled (V c main_v12) (V c main_v5) :=
  (dat0 V c).arrAt_eq_of_cover 2 _ (fun t _ => flushed_eq V c t) covered

end Cert.KernelIdeal.Scale0

end
-- ==== Proof.Scale2.lean ====
/-
  The second scaling launch: every row of the gathered message table is multiplied by that row's edge
  weight. The launch walks 250 blocks of 8000 rows; block t of the result is rows 8000·t … 8000·t + 7999 of
  the row-scaled table, and the 250 blocks tile all 2,000,000 rows, so after the launch the result array
  is the whole table with row r scaled by weight r.
-/
import proofs.«113412_j12257836662828_1_alg».proof.Proof.Gen.KernelIdeal.Frame
import Idealize.ShloMosaic.Lib.Pipeline.Value
import Idealize.ShloMosaic.Lib.ValueIdx

set_option maxRecDepth 16384

noncomputable section

namespace Cert.KernelIdeal.Scale2

open Idealize.ShloMosaic Idealize.ShloMosaic.TcCoe Idealize.SL.Sem
open Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

theorem origin2 : (![0, 0] : Fin 2 → Nat) = fun _ => 0 := funext fun a => by fin_cases a <;> rfl

/-- A column of 2,000,000 entries spreads along rows of 64. -/
theorem spreads : S2000000x1.Broadcasts S2000000x64 := by decide

/-- Row r of `a` times the single entry of row r of the column `b`. -/
abbrev rowScaled (a : S2000000x64.Idx → Elt F .f32) (b : S2000000x1.Idx → Elt F .f32) : S2000000x64.Idx → Elt F .f32 :=
  fun i => FloatOps.mulf (a i) (broadcastTo S2000000x64 b spreads i)

/-- The body multiplies its block of the table by its block of the weight column, spread along the row. -/
theorem pay_eq (x0 : Vec F S8000x64 .f32) (x1 : Vec F S8000x1 .f32) :
    k2_pay1 x0 x1 = mulf x0 (broadcastTo S8000x64 x1 broadcasts_S8000x1_S8000x64) := by
  unfold k2_pay1
  simp only [shapeCast_self]

/-- Spreading a one-column block along its rows: entry (r, k) is the column's entry r. -/
theorem spread_block (x1 : Vec F S8000x1 .f32) (j : S8000x64.Idx) :
    broadcastTo S8000x64 x1 broadcasts_S8000x1_S8000x64 j = x1 (ValueIdx.ix2 (n0 := 8000) (n1 := 1) (j 0) 0) :=
  broadcastTo_apply x1 _ j _ (fun a => by match a with | ⟨0, _⟩ => rfl | ⟨1, _⟩ => rfl)

/-- The same for the whole column of 2,000,000 weights. -/
theorem spread_all (b : S2000000x1.Idx → Elt F .f32) (h : S2000000x1.Broadcasts S2000000x64) (i : S2000000x64.Idx) :
    broadcastTo S2000000x64 b h i = b (ValueIdx.ix2 (n0 := 2000000) (n1 := 1) (i 0) 0) :=
  broadcastTo_apply b _ i _ (fun a => by match a with | ⟨0, _⟩ => rfl | ⟨1, _⟩ => rfl)

/-- Where block t of each window sits: all three move down the rows together, one block of 8000 rows per point. -/
theorem block_index : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

theorem flushed_eq (c : Dev nD) (t : Fin cfg2.N) :
    (dat2 V c).flushed 2 t = ((cfg2.win 2).blk t).view.read (Elt F) (rowScaled (V c main_v24) (V c main_v5)) := by
  show (cfg2.win 2).cut (grid2.coords t) ((dat2 V c).after 2 t) = _
  rw [after2_2]
  unfold out2_2
  rw [View.canon_unit_zero origin2]
  simp only [View.ld_unit_zero (S := S8000x64) origin2, View.ld_unit_zero (S := S8000x1) origin2]
  rw [pay_eq]
  obtain ⟨e0, e1, e2, e3, e4, e5⟩ := block_index t
  funext j
  show FloatOps.mulf (V c main_v24 (((cfg2.win 0).blk t).view.emb j)) (broadcastTo S8000x64 (iblk2 V c 1 t) broadcasts_S8000x1_S8000x64 j)
     = FloatOps.mulf (V c main_v24 (((cfg2.win 2).blk t).view.emb j)) (broadcastTo S2000000x64 (V c main_v5) spreads (((cfg2.win 2).blk t).view.emb j))
  rw [spread_block, spread_all]
  show FloatOps.mulf (V c main_v24 (((cfg2.win 0).blk t).view.emb j)) (V c main_v5 (((cfg2.win 1).blk t).view.emb (ValueIdx.ix2 (n0 := 8000) (n1 := 1) (j 0) 0)))
     = FloatOps.mulf (V c main_v24 (((cfg2.win 2).blk t).view.emb j)) (V c main_v5 (ValueIdx.ix2 (n0 := 2000000) (n1 := 1) ((((cfg2.win 2).blk t).view.emb j) 0) 0))
  have h0 : ((cfg2.win 0).blk t).view.emb j = ((cfg2.win 2).blk t).view.emb j := by
    funext a; apply Fin.ext
    match a with
    | ⟨0, _⟩ => show win2_0.index t (0 : Fin 2) * 8000 + 1 * (j 0).val = win2_2.index t (0 : Fin 2) * 8000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (ValueIdx.ix2 (n0 := 8000) (n1 := 1) (j 0) 0) = ValueIdx.ix2 (n0 := 2000000) (n1 := 1) ((((cfg2.win 2).blk t).view.emb j) 0) 0 := by
    funext a; apply Fin.ext
    match a with
    | ⟨0, _⟩ => show win2_1.index t (0 : Fin 2) * 8000 + 1 * (j 0).val = win2_2.index t (0 : Fin 2) * 8000 + 1 * (j 0).val; omega
    | ⟨1, _⟩ => show win2_1.index t (1 : Fin 2) * 1 + 1 * 0 = 0; omega
  rw [h0, h1]

/-- An index lies in point t's block of the result iff each coordinate lies in the block's range on its axis. -/
theorem mem_blk (t : Fin cfg2.N) (i : S2000000x64.Idx) :
    i ∈ ((cfg2.win 2).blk t).view.set ↔ ∀ a : Fin 2, win2_2.index t a * S8000x64.size a ≤ (i a).val ∧ (i a).val < win2_2.index t a * S8000x64.size a + S8000x64.size a := by
  show i ∈ ((View.whole main_v25).slice (win2_2.rect t)).set ↔ _
  rw [View.set_slice_whole, Rect.mem_set_unit]
  exact Iff.rfl

/-- Every row belongs to the block of the point numbered by the row's quotient by 8000. -/
theorem covered (i : S2000000x64.Idx) : ∃ t : Fin cfg2.N, (cfg2.win 2).flush t = true ∧ i ∈ ((cfg2.win 2).blk t).view.set := by
  have hi0 : (i 0).val < 2000000 := (i 0).isLt
  have hi1 : (i 1).val < 64 := (i 1).isLt
  have hN : (i 0).val / 8000 < cfg2.N := by
    show (i 0).val / 8000 < grid2.N
    rw [N_2]; omega
  obtain ⟨e0, e1, e2, e3, e4, e5⟩ := block_index ⟨(i 0).val / 8000, hN⟩
  refine ⟨⟨(i 0).val / 8000, hN⟩, flush2_2 _, ?_⟩
  rw [mem_blk]
  intro a
  match a with
  | ⟨0, _⟩ =>
    show win2_2.index ⟨(i 0).val / 8000, hN⟩ (0 : Fin 2) * 8000 ≤ (i 0).val ∧ (i 0).val < win2_2.index ⟨(i 0).val / 8000, hN⟩ (0 : Fin 2) * 8000 + 8000
    rw [e4]
    show (i 0).val / 8000 * 8000 ≤ (i 0).val ∧ (i 0).val < (i 0).val / 8000 * 8000 + 8000
    omega
  | ⟨1, _⟩ =>
    show win2_2.index ⟨(i 0).val / 8000, hN⟩ (1 : Fin 2) * 64 ≤ (i 1).val ∧ (i 1).val < win2_2.index ⟨(i 0).val / 8000, hN⟩ (1 : Fin 2) * 64 + 64
    rw [e5]
    omega

/-- After the launch the result array is the whole table, row r scaled by weight r. -/
theorem result_array (c : Dev nD) : (dat2 V c).arrAt 2 cfg2.N = rowScaled (V c main_v24) (V c main_v5) :=
  (dat2 V c).arrAt_eq_of_cover 2 _ (fun t _ => flushed_eq V c t) covered

end Cert.KernelIdeal.Scale2

end
-- ==== Proof.Scale4.lean ====
/-
  The third scaling launch: every row of the gathered message table is multiplied by that row's edge
  weight. The launch walks 250 blocks of 8000 rows; block t of the result is rows 8000·t … 8000·t + 7999 of
  the row-scaled table, and the 250 blocks tile all 2,000,000 rows, so after the launch the result array
  is the whole table with row r scaled by weight r.
-/
import proofs.«113412_j12257836662828_1_alg».proof.Proof.Gen.KernelIdeal.Frame
import Idealize.ShloMosaic.Lib.Pipeline.Value
import Idealize.ShloMosaic.Lib.ValueIdx

set_option maxRecDepth 16384

noncomputable section

namespace Cert.KernelIdeal.Scale4

open Idealize.ShloMosaic Idealize.ShloMosaic.TcCoe Idealize.SL.Sem
open Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

theorem origin2 : (![0, 0] : Fin 2 → Nat) = fun _ => 0 := funext fun a => by fin_cases a <;> rfl

/-- A column of 2,000,000 entries spreads along rows of 64. -/
theorem spreads : S2000000x1.Broadcasts S2000000x64 := by decide

/-- Row r of `a` times the single entry of row r of the column `b`. -/
abbrev rowScaled (a : S2000000x64.Idx → Elt F .f32) (b : S2000000x1.Idx → Elt F .f32) : S2000000x64.Idx → Elt F .f32 :=
  fun i => FloatOps.mulf (a i) (broadcastTo S2000000x64 b spreads i)

/-- The body multiplies its block of the table by its block of the weight column, spread along the row. -/
theorem pay_eq (x0 : Vec F S8000x64 .f32) (x1 : Vec F S8000x1 .f32) :
    k4_pay1 x0 x1 = mulf x0 (broadcastTo S8000x64 x1 broadcasts_S8000x1_S8000x64) := by
  unfold k4_pay1
  simp only [shapeCast_self]

/-- Spreading a one-column block along its rows: entry (r, k) is the column's entry r. -/
theorem spread_block (x1 : Vec F S8000x1 .f32) (j : S8000x64.Idx) :
    broadcastTo S8000x64 x1 broadcasts_S8000x1_S8000x64 j = x1 (ValueIdx.ix2 (n0 := 8000) (n1 := 1) (j 0) 0) :=
  broadcastTo_apply x1 _ j _ (fun a => by match a with | ⟨0, _⟩ => rfl | ⟨1, _⟩ => rfl)

/-- The same for the whole column of 2,000,000 weights. -/
theorem spread_all (b : S2000000x1.Idx → Elt F .f32) (h : S2000000x1.Broadcasts S2000000x64) (i : S2000000x64.Idx) :
    broadcastTo S2000000x64 b h i = b (ValueIdx.ix2 (n0 := 2000000) (n1 := 1) (i 0) 0) :=
  broadcastTo_apply b _ i _ (fun a => by match a with | ⟨0, _⟩ => rfl | ⟨1, _⟩ => rfl)

/-- Where block t of each window sits: all three move down the rows together, one block of 8000 rows per point. -/
theorem block_index : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

theorem flushed_eq (c : Dev nD) (t : Fin cfg4.N) :
    (dat4 V c).flushed 2 t = ((cfg4.win 2).blk t).view.read (Elt F) (rowScaled (V c main_v36) (V c main_v5)) := by
  show (cfg4.win 2).cut (grid4.coords t) ((dat4 V c).after 2 t) = _
  rw [after4_2]
  unfold out4_2
  rw [View.canon_unit_zero origin2]
  simp only [View.ld_unit_zero (S := S8000x64) origin2, View.ld_unit_zero (S := S8000x1) origin2]
  rw [pay_eq]
  obtain ⟨e0, e1, e2, e3, e4, e5⟩ := block_index t
  funext j
  show FloatOps.mulf (V c main_v36 (((cfg4.win 0).blk t).view.emb j)) (broadcastTo S8000x64 (iblk4 V c 1 t) broadcasts_S8000x1_S8000x64 j)
     = FloatOps.mulf (V c main_v36 (((cfg4.win 2).blk t).view.emb j)) (broadcastTo S2000000x64 (V c main_v5) spreads (((cfg4.win 2).blk t).view.emb j))
  rw [spread_block, spread_all]
  show FloatOps.mulf (V c main_v36 (((cfg4.win 0).blk t).view.emb j)) (V c main_v5 (((cfg4.win 1).blk t).view.emb (ValueIdx.ix2 (n0 := 8000) (n1 := 1) (j 0) 0)))
     = FloatOps.mulf (V c main_v36 (((cfg4.win 2).blk t).view.emb j)) (V c main_v5 (ValueIdx.ix2 (n0 := 2000000) (n1 := 1) ((((cfg4.win 2).blk t).view.emb j) 0) 0))
  have h0 : ((cfg4.win 0).blk t).view.emb j = ((cfg4.win 2).blk t).view.emb j := by
    funext a; apply Fin.ext
    match a with
    | ⟨0, _⟩ => show win4_0.index t (0 : Fin 2) * 8000 + 1 * (j 0).val = win4_2.index t (0 : Fin 2) * 8000 + 1 * (j 0).val; omega
    | ⟨1, _⟩ => show win4_0.index t (1 : Fin 2) * 64 + 1 * (j 1).val = win4_2.index t (1 : Fin 2) * 64 + 1 * (j 1).val; omega
  have h1 : ((cfg4.win 1).blk t).view.emb (ValueIdx.ix2 (n0 := 8000) (n1 := 1) (j 0) 0) = ValueIdx.ix2 (n0 := 2000000) (n1 := 1) ((((cfg4.win 2).blk t).view.emb j) 0) 0 := by
    funext a; apply Fin.ext
    match a with
    | ⟨0, _⟩ => show win4_1.index t (0 : Fin 2) * 8000 + 1 * (j 0).val = win4_2.index t (0 : Fin 2) * 8000 + 1 * (j 0).val; omega
    | ⟨1, _⟩ => show win4_1.index t (1 : Fin 2) * 1 + 1 * 0 = 0; omega
  rw [h0, h1]

/-- An index lies in point t's block of the result iff each coordinate lies in the block's range on its axis. -/
theorem mem_blk (t : Fin cfg4.N) (i : S2000000x64.Idx) :
    i ∈ ((cfg4.win 2).blk t).view.set ↔ ∀ a : Fin 2, win4_2.index t a * S8000x64.size a ≤ (i a).val ∧ (i a).val < win4_2.index t a * S8000x64.size a + S8000x64.size a := by
  show i ∈ ((View.whole main_v37).slice (win4_2.rect t)).set ↔ _
  rw [View.set_slice_whole, Rect.mem_set_unit]
  exact Iff.rfl

/-- Every row belongs to the block of the point numbered by the row's quotient by 8000. -/
theorem covered (i : S2000000x64.Idx) : ∃ t : Fin cfg4.N, (cfg4.win 2).flush t = true ∧ i ∈ ((cfg4.win 2).blk t).view.set := by
  have hi0 : (i 0).val < 2000000 := (i 0).isLt
  have hi1 : (i 1).val < 64 := (i 1).isLt
  have hN : (i 0).val / 8000 < cfg4.N := by
    show (i 0).val / 8000 < grid4.N
    rw [N_4]; omega
  obtain ⟨e0, e1, e2, e3, e4, e5⟩ := block_index ⟨(i 0).val / 8000, hN⟩
  refine ⟨⟨(i 0).val / 8000, hN⟩, flush4_2 _, ?_⟩
  rw [mem_blk]
  intro a
  match a with
  | ⟨0, _⟩ =>
    show win4_2.index ⟨(i 0).val / 8000, hN⟩ (0 : Fin 2) * 8000 ≤ (i 0).val ∧ (i 0).val < win4_2.index ⟨(i 0).val / 8000, hN⟩ (0 : Fin 2) * 8000 + 8000
    rw [e4]
    show (i 0).val / 8000 * 8000 ≤ (i 0).val ∧ (i 0).val < (i 0).val / 8000 * 8000 + 8000
    omega
  | ⟨1, _⟩ =>
    show win4_2.index ⟨(i 0).val / 8000, hN⟩ (1 : Fin 2) * 64 ≤ (i 1).val ∧ (i 1).val < win4_2.index ⟨(i 0).val / 8000, hN⟩ (1 : Fin 2) * 64 + 64
    rw [e5]
    omega

/-- After the launch the result array is the whole table, row r scaled by weight r. -/
theorem result_array (c : Dev nD) : (dat4 V c).arrAt 2 cfg4.N = rowScaled (V c main_v36) (V c main_v5) :=
  (dat4 V c).arrAt_eq_of_cover 2 _ (fun t _ => flushed_eq V c t) covered

end Cert.KernelIdeal.Scale4

end
-- ==== Proof.Acc1.lean ====
/-
  The first accumulating launch: the running total and the first propagated table are added entry by entry and the sum is multiplied by the constant one.
  The launch walks 15 blocks of 10000 rows; block t of the result is rows 10000·t … 10000·t + 9999 of the
  entrywise result, and the 15 blocks tile all 150,000 rows.
-/
import proofs.«113412_j12257836662828_1_alg».proof.Proof.Gen.KernelIdeal.Frame
import Idealize.ShloMosaic.Lib.Pipeline.Value

set_option maxRecDepth 16384

noncomputable section

namespace Cert.KernelIdeal.Acc1

open Idealize.ShloMosaic Idealize.ShloMosaic.TcCoe Idealize.SL.Sem
open Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

theorem origin2 : (![0, 0] : Fin 2 → Nat) = fun _ => 0 := funext fun a => by fin_cases a <;> rfl

/-- Entry by entry: the sum of the two tables, times the constant `k`. -/
abbrev sumTimes (k : F .f32) (a b : S150000x64.Idx → Elt F .f32) : S150000x64.Idx → Elt F .f32 :=
  fun i => FloatOps.mulf (FloatOps.addf (a i) (b i)) k

/-- The body adds its two blocks and multiplies by the constant spread over the block. -/
theorem pay_eq (x0 x1 : Vec F S10000x64 .f32) :
    k1_pay1 x0 x1 = mulf (addf x0 x1) (broadcast S10000x64 (Scalar.ofBits .f32 0x3F800000#32)) := by
  unfold k1_pay1
  simp only [shapeCast_self]

/-- Where block t of each window sits: all three move down the rows together, one block of 10000 rows per point. -/
theorem block_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the entrywise result. -/
theorem flushed_eq (c : Dev nD) (t : Fin cfg1.N) :
    (dat1 V c).flushed 2 t = ((cfg1.win 2).blk t).view.read (Elt F) (sumTimes (Scalar.ofBits .f32 0x3F800000#32) (V c main_v4) (V c main_v16)) := by
  show (cfg1.win 2).cut (grid1.coords t) ((dat1 V c).after 2 t) = _
  rw [after1_2]
  unfold out1_2
  rw [View.canon_unit_zero origin2]
  simp only [View.ld_unit_zero (S := S10000x64) origin2]
  rw [pay_eq]
  obtain ⟨e0, e1, e2, e3, e4, e5⟩ := block_index t
  funext j
  show FloatOps.mulf (FloatOps.addf (V c main_v4 (((cfg1.win 0).blk t).view.emb j)) (V c main_v16 (((cfg1.win 1).blk t).view.emb j))) (Scalar.ofBits .f32 0x3F800000#32)
     = FloatOps.mulf (FloatOps.addf (V c main_v4 (((cfg1.win 2).blk t).view.emb j)) (V c main_v16 (((cfg1.win 2).blk t).view.emb j))) (Scalar.ofBits .f32 0x3F800000#32)
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 64 + 1 * (j 1).val = win1_2.index t (1 : Fin 2) * 64 + 1 * (j 1).val; omega
  rw [h0, h1]

/-- An index lies in point t's block of the result iff each coordinate lies in the block's range on its axis. -/
theorem mem_blk (t : Fin cfg1.N) (i : S150000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v17).slice (win1_2.rect t)).set ↔ _
  rw [View.set_slice_whole, Rect.mem_set_unit]
  exact Iff.rfl

/-- Every row belongs to the block of the point numbered by the row's quotient by 10000. -/
theorem covered (i : S150000x64.Idx) : ∃ t : Fin cfg1.N, (cfg1.win 2).flush t = true ∧ i ∈ ((cfg1.win 2).blk t).view.set := by
  have hi0 : (i 0).val < 150000 := (i 0).isLt
  have hi1 : (i 1).val < 64 := (i 1).isLt
  have hN : (i 0).val / 10000 < cfg1.N := by
    show (i 0).val / 10000 < grid1.N
    rw [N_1]; omega
  obtain ⟨e0, e1, e2, e3, e4, e5⟩ := block_index ⟨(i 0).val / 10000, hN⟩
  refine ⟨⟨(i 0).val / 10000, hN⟩, flush1_2 _, ?_⟩
  rw [mem_blk]
  intro a
  match a with
  | ⟨0, _⟩ =>
    show win1_2.index ⟨(i 0).val / 10000, hN⟩ (0 : Fin 2) * 10000 ≤ (i 0).val ∧ (i 0).val < win1_2.index ⟨(i 0).val / 10000, hN⟩ (0 : Fin 2) * 10000 + 10000
    rw [e4]
    show (i 0).val / 10000 * 10000 ≤ (i 0).val ∧ (i 0).val < (i 0).val / 10000 * 10000 + 10000
    omega
  | ⟨1, _⟩ =>
    show win1_2.index ⟨(i 0).val / 10000, hN⟩ (1 : Fin 2) * 64 ≤ (i 1).val ∧ (i 1).val < win1_2.index ⟨(i 0).val / 10000, hN⟩ (1 : Fin 2) * 64 + 64
    rw [e5]
    omega

/-- After the launch the result array is the entrywise result on all 150,000 rows. -/
theorem result_array (c : Dev nD) : (dat1 V c).arrAt 2 cfg1.N = sumTimes (Scalar.ofBits .f32 0x3F800000#32) (V c main_v4) (V c main_v16) :=
  (dat1 V c).arrAt_eq_of_cover 2 _ (fun t _ => flushed_eq V c t) covered

end Cert.KernelIdeal.Acc1

end
-- ==== Proof.Acc3.lean ====
/-
  The second accumulating launch: the running total and the second propagated table are added entry by entry and the sum is multiplied by the constant one.
  The launch walks 15 blocks of 10000 rows; block t of the result is rows 10000·t … 10000·t + 9999 of the
  entrywise result, and the 15 blocks tile all 150,000 rows.
-/
import proofs.«113412_j12257836662828_1_alg».proof.Proof.Gen.KernelIdeal.Frame
import Idealize.ShloMosaic.Lib.Pipeline.Value

set_option maxRecDepth 16384

noncomputable section

namespace Cert.KernelIdeal.Acc3

open Idealize.ShloMosaic Idealize.ShloMosaic.TcCoe Idealize.SL.Sem
open Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

theorem origin2 : (![0, 0] : Fin 2 → Nat) = fun _ => 0 := funext fun a => by fin_cases a <;> rfl

/-- Entry by entry: the sum of the two tables, times the constant `k`. -/
abbrev sumTimes (k : F .f32) (a b : S150000x64.Idx → Elt F .f32) : S150000x64.Idx → Elt F .f32 :=
  fun i => FloatOps.mulf (FloatOps.addf (a i) (b i)) k

/-- The body adds its two blocks and multiplies by the constant spread over the block. -/
theorem pay_eq (x0 x1 : Vec F S10000x64 .f32) :
    k3_pay1 x0 x1 = mulf (addf x0 x1) (broadcast S10000x64 (Scalar.ofBits .f32 0x3F800000#32)) := by
  unfold k3_pay1
  simp only [shapeCast_self]

/-- Where block t of each window sits: all three move down the rows together, one block of 10000 rows per point. -/
theorem block_index : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point t writes back is block t of the entrywise result. -/
theorem flushed_eq (c : Dev nD) (t : Fin cfg3.N) :
    (dat3 V c).flushed 2 t = ((cfg3.win 2).blk t).view.read (Elt F) (sumTimes (Scalar.ofBits .f32 0x3F800000#32) (V c main_v17) (V c main_v28)) := by
  show (cfg3.win 2).cut (grid3.coords t) ((dat3 V c).after 2 t) = _
  rw [after3_2]
  unfold out3_2
  rw [View.canon_unit_zero origin2]
  simp only [View.ld_unit_zero (S := S10000x64) origin2]
  rw [pay_eq]
  obtain ⟨e0, e1, e2, e3, e4, e5⟩ := block_index t
  funext j
  show FloatOps.mulf (FloatOps.addf (V c main_v17 (((cfg3.win 0).blk t).view.emb j)) (V c main_v28 (((cfg3.win 1).blk t).view.emb j))) (Scalar.ofBits .f32 0x3F800000#32)
     = FloatOps.mulf (FloatOps.addf (V c main_v17 (((cfg3.win 2).blk t).view.emb j)) (V c main_v28 (((cfg3.win 2).blk t).view.emb j))) (Scalar.ofBits .f32 0x3F800000#32)
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb j = ((cfg3.win 2).blk t).view.emb j := by
    funext a; apply Fin.ext
    match a with
    | ⟨0, _⟩ => show win3_1.index t (0 : Fin 2) * 10000 + 1 * (j 0).val = win3_2.index t (0 : Fin 2) * 10000 + 1 * (j 0).val; omega
    | ⟨1, _⟩ => show win3_1.index t (1 : Fin 2) * 64 + 1 * (j 1).val = win3_2.index t (1 : Fin 2) * 64 + 1 * (j 1).val; omega
  rw [h0, h1]

/-- An index lies in point t's block of the result iff each coordinate lies in the block's range on its axis. -/
theorem mem_blk (t : Fin cfg3.N) (i : S150000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v29).slice (win3_2.rect t)).set ↔ _
  rw [View.set_slice_whole, Rect.mem_set_unit]
  exact Iff.rfl

/-- Every row belongs to the block of the point numbered by the row's quotient by 10000. -/
theorem covered (i : S150000x64.Idx) : ∃ t : Fin cfg3.N, (cfg3.win 2).flush t = true ∧ i ∈ ((cfg3.win 2).blk t).view.set := by
  have hi0 : (i 0).val < 150000 := (i 0).isLt
  have hi1 : (i 1).val < 64 := (i 1).isLt
  have hN : (i 0).val / 10000 < cfg3.N := by
    show (i 0).val / 10000 < grid3.N
    rw [N_3]; omega
  obtain ⟨e0, e1, e2, e3, e4, e5⟩ := block_index ⟨(i 0).val / 10000, hN⟩
  refine ⟨⟨(i 0).val / 10000, hN⟩, flush3_2 _, ?_⟩
  rw [mem_blk]
  intro a
  match a with
  | ⟨0, _⟩ =>
    show win3_2.index ⟨(i 0).val / 10000, hN⟩ (0 : Fin 2) * 10000 ≤ (i 0).val ∧ (i 0).val < win3_2.index ⟨(i 0).val / 10000, hN⟩ (0 : Fin 2) * 10000 + 10000
    rw [e4]
    show (i 0).val / 10000 * 10000 ≤ (i 0).val ∧ (i 0).val < (i 0).val / 10000 * 10000 + 10000
    omega
  | ⟨1, _⟩ =>
    show win3_2.index ⟨(i 0).val / 10000, hN⟩ (1 : Fin 2) * 64 ≤ (i 1).val ∧ (i 1).val < win3_2.index ⟨(i 0).val / 10000, hN⟩ (1 : Fin 2) * 64 + 64
    rw [e5]
    omega

/-- After the launch the result array is the entrywise result on all 150,000 rows. -/
theorem result_array (c : Dev nD) : (dat3 V c).arrAt 2 cfg3.N = sumTimes (Scalar.ofBits .f32 0x3F800000#32) (V c main_v17) (V c main_v28) :=
  (dat3 V c).arrAt_eq_of_cover 2 _ (fun t _ => flushed_eq V c t) covered

end Cert.KernelIdeal.Acc3

end
-- ==== Proof.Acc5.lean ====
/-
  The third accumulating launch: the running total and the third propagated table are added entry by entry and the sum is multiplied by the constant one quarter.
  The launch walks 15 blocks of 10000 rows; block t of the result is rows 10000·t … 10000·t + 9999 of the
  entrywise result, and the 15 blocks tile all 150,000 rows.
-/
import proofs.«113412_j12257836662828_1_alg».proof.Proof.Gen.KernelIdeal.Frame
import Idealize.ShloMosaic.Lib.Pipeline.Value

set_option maxRecDepth 16384

noncomputable section

namespace Cert.KernelIdeal.Acc5

open Idealize.ShloMosaic Idealize.ShloMosaic.TcCoe Idealize.SL.Sem
open Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

theorem origin2 : (![0, 0] : Fin 2 → Nat) = fun _ => 0 := funext fun a => by fin_cases a <;> rfl

/-- Entry by entry: the sum of the two tables, times the constant `k`. -/
abbrev sumTimes (k : F .f32) (a b : S150000x64.Idx → Elt F .f32) : S150000x64.Idx → Elt F .f32 :=
  fun i => FloatOps.mulf (FloatOps.addf (a i) (b i)) k

/-- The body adds its two blocks and multiplies by the constant spread over the block. -/
theorem pay_eq (x0 x1 : Vec F S10000x64 .f32) :
    k5_pay1 x0 x1 = mulf (addf x0 x1) (broadcast S10000x64 (Scalar.ofBits .f32 0x3E800000#32)) := by
  unfold k5_pay1
  simp only [shapeCast_self]

/-- Where block t of each window sits: all three move down the rows together, one block of 10000 rows per point. -/
theorem block_index : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- What point t writes back is block t of the entrywise result. -/
theorem flushed_eq (c : Dev nD) (t : Fin cfg5.N) :
    (dat5 V c).flushed 2 t = ((cfg5.win 2).blk t).view.read (Elt F) (sumTimes (Scalar.ofBits .f32 0x3E800000#32) (V c main_v29) (V c main_v40)) := by
  show (cfg5.win 2).cut (grid5.coords t) ((dat5 V c).after 2 t) = _
  rw [after5_2]
  unfold out5_2
  rw [View.canon_unit_zero origin2]
  simp only [View.ld_unit_zero (S := S10000x64) origin2]
  rw [pay_eq]
  obtain ⟨e0, e1, e2, e3, e4, e5⟩ := block_index t
  funext j
  show FloatOps.mulf (FloatOps.addf (V c main_v29 (((cfg5.win 0).blk t).view.emb j)) (V c main_v40 (((cfg5.win 1).blk t).view.emb j))) (Scalar.ofBits .f32 0x3E800000#32)
     = FloatOps.mulf (FloatOps.addf (V c main_v29 (((cfg5.win 2).blk t).view.emb j)) (V c main_v40 (((cfg5.win 2).blk t).view.emb j))) (Scalar.ofBits .f32 0x3E800000#32)
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb j = ((cfg5.win 2).blk t).view.emb j := by
    funext a; apply Fin.ext
    match a with
    | ⟨0, _⟩ => show win5_1.index t (0 : Fin 2) * 10000 + 1 * (j 0).val = win5_2.index t (0 : Fin 2) * 10000 + 1 * (j 0).val; omega
    | ⟨1, _⟩ => show win5_1.index t (1 : Fin 2) * 64 + 1 * (j 1).val = win5_2.index t (1 : Fin 2) * 64 + 1 * (j 1).val; omega
  rw [h0, h1]

/-- An index lies in point t's block of the result iff each coordinate lies in the block's range on its axis. -/
theorem mem_blk (t : Fin cfg5.N) (i : S150000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v41).slice (win5_2.rect t)).set ↔ _
  rw [View.set_slice_whole, Rect.mem_set_unit]
  exact Iff.rfl

/-- Every row belongs to the block of the point numbered by the row's quotient by 10000. -/
theorem covered (i : S150000x64.Idx) : ∃ t : Fin cfg5.N, (cfg5.win 2).flush t = true ∧ i ∈ ((cfg5.win 2).blk t).view.set := by
  have hi0 : (i 0).val < 150000 := (i 0).isLt
  have hi1 : (i 1).val < 64 := (i 1).isLt
  have hN : (i 0).val / 10000 < cfg5.N := by
    show (i 0).val / 10000 < grid5.N
    rw [N_5]; omega
  obtain ⟨e0, e1, e2, e3, e4, e5⟩ := block_index ⟨(i 0).val / 10000, hN⟩
  refine ⟨⟨(i 0).val / 10000, hN⟩, flush5_2 _, ?_⟩
  rw [mem_blk]
  intro a
  match a with
  | ⟨0, _⟩ =>
    show win5_2.index ⟨(i 0).val / 10000, hN⟩ (0 : Fin 2) * 10000 ≤ (i 0).val ∧ (i 0).val < win5_2.index ⟨(i 0).val / 10000, hN⟩ (0 : Fin 2) * 10000 + 10000
    rw [e4]
    show (i 0).val / 10000 * 10000 ≤ (i 0).val ∧ (i 0).val < (i 0).val / 10000 * 10000 + 10000
    omega
  | ⟨1, _⟩ =>
    show win5_2.index ⟨(i 0).val / 10000, hN⟩ (1 : Fin 2) * 64 ≤ (i 1).val ∧ (i 1).val < win5_2.index ⟨(i 0).val / 10000, hN⟩ (1 : Fin 2) * 64 + 64
    rw [e5]
    omega

/-- After the launch the result array is the entrywise result on all 150,000 rows. -/
theorem result_array (c : Dev nD) : (dat5 V c).arrAt 2 cfg5.N = sumTimes (Scalar.ofBits .f32 0x3E800000#32) (V c main_v29) (V c main_v40) :=
  (dat5 V c).arrAt_eq_of_cover 2 _ (fun t _ => flushed_eq V c t) covered

end Cert.KernelIdeal.Acc5

end
-- ==== Proof.Chain.lean ====
/-
  What the two result buffers hold when @main returns, read back boundary by boundary.
  Write e for the stacked embedding table (users above items), w for the weight column, row and col for the two
  rows of the edge list, gather x for the table whose row k is row col k of x (a negative col k counted from the
  end), and scatter u for the table whose row n is the sum of the rows k of u with row k = n. Then

      x1 = scatter ((gather e)  · w)      a1 = (e  + x1) · 1
      x2 = scatter ((gather x1) · w)      a2 = (a1 + x2) · 1
      x3 = scatter ((gather x2) · w)      a3 = (a2 + x3) · 1/4

  where u · w scales row k of u by w k, and the two results are the first 100,000 and the last 50,000 rows of a3.
  Each launch's result array comes from that launch's own module; every other buffer is carried across a launch
  unchanged, and across a stretch of host operations every buffer the stretch does not write is unchanged.
-/
import proofs.«113412_j12257836662828_1_alg».proof.Proof.Gen.KernelIdeal.Frame
import Idealize.ShloMosaic.Lib.Pipeline.Value
import proofs.«113412_j12257836662828_1_alg».proof.Proof.Scale0
import proofs.«113412_j12257836662828_1_alg».proof.Proof.Scale2
import proofs.«113412_j12257836662828_1_alg».proof.Proof.Scale4
import proofs.«113412_j12257836662828_1_alg».proof.Proof.Acc1
import proofs.«113412_j12257836662828_1_alg».proof.Proof.Acc3
import proofs.«113412_j12257836662828_1_alg».proof.Proof.Acc5
import Idealize.ShloMosaic.Lib.StableHlo.Run

set_option maxRecDepth 16384

noncomputable section

namespace Cert.KernelIdeal.Chain

open Idealize.ShloMosaic Idealize.ShloMosaic.TcCoe Idealize.SL.Sem
open Cert.KernelIdeal Cert.KernelIdeal.Gen
open Idealize.ShloMosaic.Pipeline (Dat)

variable {F : FTy → Type} [FloatOps F]
variable (m : (ℓ : Loc nD τ sig) → Buf (Elt F) ℓ) (ρ : Dev nD → PrngReg) (c : Dev nD)

open Idealize.ShloMosaic.StableHlo

/-! ## The host operations' functions -/

/-- Row 0 of the edge list: the destination of every edge. -/
abbrev rowOf (ei : (⟨S2x2000000, .i32⟩ : BufTy).Contents (Elt F)) : (⟨S2000000, .i32⟩ : BufTy).Contents (Elt F) :=
  shapeCast _ (extractStridedSlice S1x2000000 ![0, 0] ei slices_S2x2000000_S1x2000000_0_0) shapeCasts_S1x2000000_S2000000
/-- Row 1 of the edge list: the source of every edge. -/
abbrev colOf (ei : (⟨S2x2000000, .i32⟩ : BufTy).Contents (Elt F)) : (⟨S2000000, .i32⟩ : BufTy).Contents (Elt F) :=
  shapeCast _ (extractStridedSlice S1x2000000 ![1, 0] ei slices_S2x2000000_S1x2000000_1_0) shapeCasts_S1x2000000_S2000000
/-- The user rows stacked above the item rows. -/
abbrev stacked (u : (⟨S100000x64, .f32⟩ : BufTy).Contents (Elt F)) (i : (⟨S50000x64, .f32⟩ : BufTy).Contents (Elt F)) : (⟨S150000x64, .f32⟩ : BufTy).Contents (Elt F) :=
  concatenate S150000x64 0 [⟨S100000x64, u⟩, ⟨S50000x64, i⟩] concatenates_S100000x64_S50000x64_S150000x64_d0
/-- The weights as a column. -/
abbrev column (w : (⟨S2000000, .f32⟩ : BufTy).Contents (Elt F)) : (⟨S2000000x1, .f32⟩ : BufTy).Contents (Elt F) :=
  broadcastInDim S2000000x1 ![0] bcast_S2000000_S2000000x1_0 w
/-- The source indices as the gather takes them: a negative index counted from the end, then as a column. -/
abbrev wrapped (col : (⟨S2000000, .i32⟩ : BufTy).Contents (Elt F)) : (⟨S2000000x1, .i32⟩ : BufTy).Contents (Elt F) :=
  broadcastInDim S2000000x1 ![0] bcast_S2000000_S2000000x1_0
    (select (cmpi .slt col (broadcastInDim S2000000 ![] bcast_S_S2000000 (constantI S_ 32 0#32)))
      (addi col (broadcastInDim S2000000 ![] bcast_S_S2000000 (constantI S_ 32 150000#32))) col)
/-- Row k of the result is row `col k` of `x`. -/
abbrev gathered (x : (⟨S150000x64, .f32⟩ : BufTy).Contents (Elt F)) (col : (⟨S2000000, .i32⟩ : BufTy).Contents (Elt F)) : (⟨S2000000x64, .f32⟩ : BufTy).Contents (Elt F) :=
  Host.gather gather_S150000x64_S2000000x1_S2000000x64_1_0_n_n_0_1_164 x (wrapped col)
/-- Row n of the result is the sum of the rows k of `u` with `row k = n`. -/
abbrev scattered (row : (⟨S2000000, .i32⟩ : BufTy).Contents (Elt F)) (u : (⟨S2000000x64, .f32⟩ : BufTy).Contents (Elt F)) : (⟨S150000x64, .f32⟩ : BufTy).Contents (Elt F) :=
  Host.scatterAdd scatter_S150000x64_S2000000x1_S2000000x64_1_0_0_1
    (broadcastInDim S150000x64 ![] bcast_S_S150000x64 (constant S_ .f32 0x00000000#32))
    (broadcastInDim S2000000x1 ![0] bcast_S2000000_S2000000x1_0 row) u

/-! ## The values at the boundaries -/

abbrev row : (⟨S2000000, .i32⟩ : BufTy).Contents (Elt F) := rowOf (m ((c : Thread nD τ).loc main_arg0))
abbrev col : (⟨S2000000, .i32⟩ : BufTy).Contents (Elt F) := colOf (m ((c : Thread nD τ).loc main_arg0))
abbrev e0 : (⟨S150000x64, .f32⟩ : BufTy).Contents (Elt F) := stacked (m ((c : Thread nD τ).loc main_arg2)) (m ((c : Thread nD τ).loc main_arg3))
abbrev wc : (⟨S2000000x1, .f32⟩ : BufTy).Contents (Elt F) := column (m ((c : Thread nD τ).loc main_arg1))
abbrev one : F .f32 := Scalar.ofBits .f32 0x3F800000#32
abbrev quarter : F .f32 := Scalar.ofBits .f32 0x3E800000#32
abbrev x1 : (⟨S150000x64, .f32⟩ : BufTy).Contents (Elt F) := scattered (row m c) (Scale0.rowScaled (gathered (e0 m c) (col m c)) (wc m c))
abbrev a1 : (⟨S150000x64, .f32⟩ : BufTy).Contents (Elt F) := Acc1.sumTimes one (e0 m c) (x1 m c)
abbrev x2 : (⟨S150000x64, .f32⟩ : BufTy).Contents (Elt F) := scattered (row m c) (Scale2.rowScaled (gathered (x1 m c) (col m c)) (wc m c))
abbrev a2 : (⟨S150000x64, .f32⟩ : BufTy).Contents (Elt F) := Acc3.sumTimes one (a1 m c) (x2 m c)
abbrev x3 : (⟨S150000x64, .f32⟩ : BufTy).Contents (Elt F) := scattered (row m c) (Scale4.rowScaled (gathered (x2 m c) (col m c)) (wc m c))
abbrev a3 : (⟨S150000x64, .f32⟩ : BufTy).Contents (Elt F) := Acc5.sumTimes quarter (a2 m c) (x3 m c)

/-! ## After the first stretch of host operations: the two index rows, the stacked table, the weight column, and the first gathered table -/

theorem W1_v1 : W1 m ρ c (Proc.devRef .tc main_v1) = row m c := by
  show StableHlo.after hostOps0 (W0 m ρ c) (Proc.devRef .tc main_v1) = _
  after_results
  rfl
theorem W1_v3 : W1 m ρ c (Proc.devRef .tc main_v3) = col m c := by
  show StableHlo.after hostOps0 (W0 m ρ c) (Proc.devRef .tc main_v3) = _
  after_results
  rfl
theorem W1_v4 : W1 m ρ c (Proc.devRef .tc main_v4) = e0 m c := by
  show StableHlo.after hostOps0 (W0 m ρ c) (Proc.devRef .tc main_v4) = _
  after_results
theorem W1_v5 : W1 m ρ c (Proc.devRef .tc main_v5) = wc m c := by
  show StableHlo.after hostOps0 (W0 m ρ c) (Proc.devRef .tc main_v5) = _
  after_results
theorem W1_v12 : W1 m ρ c (Proc.devRef .tc main_v12) = gathered (e0 m c) (col m c) := by
  show StableHlo.after hostOps0 (W0 m ρ c) (Proc.devRef .tc main_v12) = _
  after_results
  rfl

/-! ## After the first scaling launch -/

/-- An input window's array leaves the launch as it entered. -/
theorem W2_in (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin cfg0.N).trans (A_eq0 (V1 m ρ) c w))
theorem W2_v1 : W2 m ρ c (Proc.devRef .tc main_v1) = row m c := (W2_of_ne m ρ c main_v1 (by decide)).trans (W1_v1 m ρ c)
theorem W2_v3 : W2 m ρ c (Proc.devRef .tc main_v3) = col m c := (W2_of_ne m ρ c main_v3 (by decide)).trans (W1_v3 m ρ c)
theorem W2_v4 : W2 m ρ c (Proc.devRef .tc main_v4) = e0 m c := (W2_of_ne m ρ c main_v4 (by decide)).trans (W1_v4 m ρ c)
theorem W2_v5 : W2 m ρ c (Proc.devRef .tc main_v5) = wc m c := (W2_in m ρ c 1 rfl).trans (W1_v5 m ρ c)
theorem W2_v13 : W2 m ρ c (Proc.devRef .tc main_v13) = Scale0.rowScaled (gathered (e0 m c) (col m c)) (wc m c) := by
  refine (W2_arr m ρ c 2).trans ((Scale0.result_array (V1 m ρ) c).trans ?_)
  show Scale0.rowScaled (W1 m ρ c (Proc.devRef .tc main_v12)) (W1 m ρ c (Proc.devRef .tc main_v5)) = _
  rw [W1_v12, W1_v5]

/-! ## After the first scatter -/

theorem W3_v1 : W3 m ρ c (Proc.devRef .tc main_v1) = row m c := by
  show StableHlo.after hostOps1 (W2 m ρ c) (Proc.devRef .tc main_v1) = _
  after_results
  exact W2_v1 m ρ c
theorem W3_v3 : W3 m ρ c (Proc.devRef .tc main_v3) = col m c := by
  show StableHlo.after hostOps1 (W2 m ρ c) (Proc.devRef .tc main_v3) = _
  after_results
  exact W2_v3 m ρ c
theorem W3_v4 : W3 m ρ c (Proc.devRef .tc main_v4) = e0 m c := by
  show StableHlo.after hostOps1 (W2 m ρ c) (Proc.devRef .tc main_v4) = _
  after_results
  exact W2_v4 m ρ c
theorem W3_v5 : W3 m ρ c (Proc.devRef .tc main_v5) = wc m c := by
  show StableHlo.after hostOps1 (W2 m ρ c) (Proc.devRef .tc main_v5) = _
  after_results
  exact W2_v5 m ρ c
theorem W3_v16 : W3 m ρ c (Proc.devRef .tc main_v16) = x1 m c := by
  show StableHlo.after hostOps1 (W2 m ρ c) (Proc.devRef .tc main_v16) = _
  after_results
  rw [W2_v1, W2_v13]

/-! ## After the first accumulating launch -/

/-- An input window's array leaves the launch as it entered. -/
theorem W4_in (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin cfg1.N).trans (A_eq1 (V3 m ρ) c w))
theorem W4_v1 : W4 m ρ c (Proc.devRef .tc main_v1) = row m c := (W4_of_ne m ρ c main_v1 (by decide)).trans (W3_v1 m ρ c)
theorem W4_v3 : W4 m ρ c (Proc.devRef .tc main_v3) = col m c := (W4_of_ne m ρ c main_v3 (by decide)).trans (W3_v3 m ρ c)
theorem W4_v5 : W4 m ρ c (Proc.devRef .tc main_v5) = wc m c := (W4_of_ne m ρ c main_v5 (by decide)).trans (W3_v5 m ρ c)
theorem W4_v16 : W4 m ρ c (Proc.devRef .tc main_v16) = x1 m c := (W4_in m ρ c 1 rfl).trans (W3_v16 m ρ c)
theorem W4_v17 : W4 m ρ c (Proc.devRef .tc main_v17) = a1 m c := by
  refine (W4_arr m ρ c 2).trans ((Acc1.result_array (V3 m ρ) c).trans ?_)
  show Acc1.sumTimes one (W3 m ρ c (Proc.devRef .tc main_v4)) (W3 m ρ c (Proc.devRef .tc main_v16)) = _
  rw [W3_v4, W3_v16]

/-! ## After the second gather -/

theorem W5_v1 : W5 m ρ c (Proc.devRef .tc main_v1) = row m c := by
  show StableHlo.after hostOps2 (W4 m ρ c) (Proc.devRef .tc main_v1) = _
  after_results
  exact W4_v1 m ρ c
theorem W5_v3 : W5 m ρ c (Proc.devRef .tc main_v3) = col m c := by
  show StableHlo.after hostOps2 (W4 m ρ c) (Proc.devRef .tc main_v3) = _
  after_results
  exact W4_v3 m ρ c
theorem W5_v5 : W5 m ρ c (Proc.devRef .tc main_v5) = wc m c := by
  show StableHlo.after hostOps2 (W4 m ρ c) (Proc.devRef .tc main_v5) = _
  after_results
  exact W4_v5 m ρ c
theorem W5_v17 : W5 m ρ c (Proc.devRef .tc main_v17) = a1 m c := by
  show StableHlo.after hostOps2 (W4 m ρ c) (Proc.devRef .tc main_v17) = _
  after_results
  exact W4_v17 m ρ c
theorem W5_v24 : W5 m ρ c (Proc.devRef .tc main_v24) = gathered (x1 m c) (col m c) := by
  show StableHlo.after hostOps2 (W4 m ρ c) (Proc.devRef .tc main_v24) = _
  after_results
  rw [W4_v16, W4_v3]

/-! ## After the second scaling launch -/

/-- An input window's array leaves the launch as it entered. -/
theorem W6_in (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin cfg2.N).trans (A_eq2 (V5 m ρ) c w))
theorem W6_v1 : W6 m ρ c (Proc.devRef .tc main_v1) = row m c := (W6_of_ne m ρ c main_v1 (by decide)).trans (W5_v1 m ρ c)
theorem W6_v3 : W6 m ρ c (Proc.devRef .tc main_v3) = col m c := (W6_of_ne m ρ c main_v3 (by decide)).trans (W5_v3 m ρ c)
theorem W6_v5 : W6 m ρ c (Proc.devRef .tc main_v5) = wc m c := (W6_in m ρ c 1 rfl).trans (W5_v5 m ρ c)
theorem W6_v17 : W6 m ρ c (Proc.devRef .tc main_v17) = a1 m c := (W6_of_ne m ρ c main_v17 (by decide)).trans (W5_v17 m ρ c)
theorem W6_v25 : W6 m ρ c (Proc.devRef .tc main_v25) = Scale2.rowScaled (gathered (x1 m c) (col m c)) (wc m c) := by
  refine (W6_arr m ρ c 2).trans ((Scale2.result_array (V5 m ρ) c).trans ?_)
  show Scale2.rowScaled (W5 m ρ c (Proc.devRef .tc main_v24)) (W5 m ρ c (Proc.devRef .tc main_v5)) = _
  rw [W5_v24, W5_v5]

/-! ## After the second scatter -/

theorem W7_v1 : W7 m ρ c (Proc.devRef .tc main_v1) = row m c := by
  show StableHlo.after hostOps3 (W6 m ρ c) (Proc.devRef .tc main_v1) = _
  after_results
  exact W6_v1 m ρ c
theorem W7_v3 : W7 m ρ c (Proc.devRef .tc main_v3) = col m c := by
  show StableHlo.after hostOps3 (W6 m ρ c) (Proc.devRef .tc main_v3) = _
  after_results
  exact W6_v3 m ρ c
theorem W7_v5 : W7 m ρ c (Proc.devRef .tc main_v5) = wc m c := by
  show StableHlo.after hostOps3 (W6 m ρ c) (Proc.devRef .tc main_v5) = _
  after_results
  exact W6_v5 m ρ c
theorem W7_v17 : W7 m ρ c (Proc.devRef .tc main_v17) = a1 m c := by
  show StableHlo.after hostOps3 (W6 m ρ c) (Proc.devRef .tc main_v17) = _
  after_results
  exact W6_v17 m ρ c
theorem W7_v28 : W7 m ρ c (Proc.devRef .tc main_v28) = x2 m c := by
  show StableHlo.after hostOps3 (W6 m ρ c) (Proc.devRef .tc main_v28) = _
  after_results
  rw [W6_v1, W6_v25]

/-! ## After the second accumulating launch -/

/-- An input window's array leaves the launch as it entered. -/
theorem W8_in (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin cfg3.N).trans (A_eq3 (V7 m ρ) c w))
theorem W8_v1 : W8 m ρ c (Proc.devRef .tc main_v1) = row m c := (W8_of_ne m ρ c main_v1 (by decide)).trans (W7_v1 m ρ c)
theorem W8_v3 : W8 m ρ c (Proc.devRef .tc main_v3) = col m c := (W8_of_ne m ρ c main_v3 (by decide)).trans (W7_v3 m ρ c)
theorem W8_v5 : W8 m ρ c (Proc.devRef .tc main_v5) = wc m c := (W8_of_ne m ρ c main_v5 (by decide)).trans (W7_v5 m ρ c)
theorem W8_v28 : W8 m ρ c (Proc.devRef .tc main_v28) = x2 m c := (W8_in m ρ c 1 rfl).trans (W7_v28 m ρ c)
theorem W8_v29 : W8 m ρ c (Proc.devRef .tc main_v29) = a2 m c := by
  refine (W8_arr m ρ c 2).trans ((Acc3.result_array (V7 m ρ) c).trans ?_)
  show Acc3.sumTimes one (W7 m ρ c (Proc.devRef .tc main_v17)) (W7 m ρ c (Proc.devRef .tc main_v28)) = _
  rw [W7_v17, W7_v28]

/-! ## After the third gather -/

theorem W9_v1 : W9 m ρ c (Proc.devRef .tc main_v1) = row m c := by
  show StableHlo.after hostOps4 (W8 m ρ c) (Proc.devRef .tc main_v1) = _
  after_results
  exact W8_v1 m ρ c
theorem W9_v5 : W9 m ρ c (Proc.devRef .tc main_v5) = wc m c := by
  show StableHlo.after hostOps4 (W8 m ρ c) (Proc.devRef .tc main_v5) = _
  after_results
  exact W8_v5 m ρ c
theorem W9_v29 : W9 m ρ c (Proc.devRef .tc main_v29) = a2 m c := by
  show StableHlo.after hostOps4 (W8 m ρ c) (Proc.devRef .tc main_v29) = _
  after_results
  exact W8_v29 m ρ c
theorem W9_v36 : W9 m ρ c (Proc.devRef .tc main_v36) = gathered (x2 m c) (col m c) := by
  show StableHlo.after hostOps4 (W8 m ρ c) (Proc.devRef .tc main_v36) = _
  after_results
  rw [W8_v28, W8_v3]

/-! ## After the third scaling launch -/

theorem W10_v1 : W10 m ρ c (Proc.devRef .tc main_v1) = row m c := (W10_of_ne m ρ c main_v1 (by decide)).trans (W9_v1 m ρ c)
theorem W10_v29 : W10 m ρ c (Proc.devRef .tc main_v29) = a2 m c := (W10_of_ne m ρ c main_v29 (by decide)).trans (W9_v29 m ρ c)
theorem W10_v37 : W10 m ρ c (Proc.devRef .tc main_v37) = Scale4.rowScaled (gathered (x2 m c) (col m c)) (wc m c) := by
  refine (W10_arr m ρ c 2).trans ((Scale4.result_array (V9 m ρ) c).trans ?_)
  show Scale4.rowScaled (W9 m ρ c (Proc.devRef .tc main_v36)) (W9 m ρ c (Proc.devRef .tc main_v5)) = _
  rw [W9_v36, W9_v5]

/-! ## After the third scatter -/

theorem W11_v29 : W11 m ρ c (Proc.devRef .tc main_v29) = a2 m c := by
  show StableHlo.after hostOps5 (W10 m ρ c) (Proc.devRef .tc main_v29) = _
  after_results
  exact W10_v29 m ρ c
theorem W11_v40 : W11 m ρ c (Proc.devRef .tc main_v40) = x3 m c := by
  show StableHlo.after hostOps5 (W10 m ρ c) (Proc.devRef .tc main_v40) = _
  after_results
  rw [W10_v1, W10_v37]

/-! ## After the third accumulating launch -/

theorem W12_v41 : W12 m ρ c (Proc.devRef .tc main_v41) = a3 m c := by
  refine (W12_arr m ρ c 2).trans ((Acc5.result_array (V11 m ρ) c).trans ?_)
  show Acc5.sumTimes quarter (W11 m ρ c (Proc.devRef .tc main_v29)) (W11 m ρ c (Proc.devRef .tc main_v40)) = _
  rw [W11_v29, W11_v40]

/-! ## At the return: the two results are the upper and the lower rows of the last running total -/

theorem W13_v42 : W13 m ρ c (Proc.devRef .tc main_v42) = extractStridedSlice S100000x64 ![0, 0] (a3 m c) slices_S150000x64_S100000x64_0_0 := by
  show StableHlo.after hostOps6 (W12 m ρ c) (Proc.devRef .tc main_v42) = _
  after_results
  rw [W12_v41]
theorem W13_v43 : W13 m ρ c (Proc.devRef .tc main_v43) = extractStridedSlice S50000x64 ![100000, 0] (a3 m c) slices_S150000x64_S50000x64_100000_0 := by
  show StableHlo.after hostOps6 (W12 m ρ c) (Proc.devRef .tc main_v43) = _
  after_results
  rw [W12_v41]

end Cert.KernelIdeal.Chain

end
-- ==== Proof.Consts.lean ====
/-
  The three float constants the two programs spell, as the extended reals their bit patterns denote: 1, 1/4 and 4.
-/
import Idealize.ShloMosaic.PureOps.Ideal

noncomputable section

namespace Cert.Consts

open Idealize.ShloMosaic

/-- The pattern of `1.0` denotes 1. -/
theorem ofBits_one : Ideal.ofBits .f32 0x3F800000#32 = 1 := by
  simp [Ideal.ofBits, Ideal.ieee, -EReal.coe_mul]; norm_num

/-- The pattern of `0.25` denotes the real 1/4. -/
theorem ofBits_quarter : Ideal.ofBits .f32 0x3E800000#32 = ((1 / 4 : ℝ) : EReal) := by
  simp [Ideal.ofBits, Ideal.ieee, -EReal.coe_mul]; norm_num

/-- The pattern of `4.0` denotes the real 4. -/
theorem ofBits_four : Ideal.ofBits .f32 0x40800000#32 = ((4 : ℝ) : EReal) := by
  simp [Ideal.ofBits, Ideal.ieee, -EReal.coe_mul]; norm_num

end Cert.Consts

end
-- ==== Proof.Bridge.lean ====
/-
  The kernel's two results are the reference's.
  With e the stacked table and step x = scatter ((gather x) · w), the reference returns the upper and the lower rows
  of (((e + step e) + step (step e)) + step (step (step e))) / 4, and the kernel (module Chain) the same rows of
  ((((e + x1) · 1 + x2) · 1) + x3) · (1/4) with x1 = step e, x2 = step x1, x3 = step x2. The two agree on the extended
  reals because y · 1 = y, because y · (1/4) = y / 4 for every extended real y (the divisor 4 is finite and not zero),
  and because scaling row k of a table by the k-th weight is the entrywise product with the weight column spread
  along the rows, which is how the reference spells it. No finiteness of the inputs is used.
-/
import proofs.«113412_j12257836662828_1_alg».proof.Proof.Chain
import proofs.«113412_j12257836662828_1_alg».proof.Proof.Gen.ReferenceIdeal.Run
import proofs.«113412_j12257836662828_1_alg».proof.Proof.Consts
import Idealize.ShloMosaic.Lib.ValueIdx
import Idealize.ShloMosaic.Lib.Pipeline.Value

set_option maxRecDepth 16384

noncomputable section

namespace Cert.ReferenceIdeal.Bridge

open Idealize.ShloMosaic Idealize.ShloMosaic.TcCoe Idealize.SL.Sem
open Cert.ReferenceIdeal Cert.ReferenceIdeal.Gen

/-! ## The reference, step by step -/

section Reference
variable (ei : (⟨S2x2000000, .i32⟩ : BufTy).Contents (Elt Ideal)) (w : (⟨S2000000, .f32⟩ : BufTy).Contents (Elt Ideal))
  (u : (⟨S100000x64, .f32⟩ : BufTy).Contents (Elt Ideal)) (it : (⟨S50000x64, .f32⟩ : BufTy).Contents (Elt Ideal))

/-- The source index of every edge, as the reference reads it off the edge list. -/
abbrev src : (⟨S2000000, .i32⟩ : BufTy).Contents (Elt Ideal) :=
  shapeCast _ (extractStridedSlice S1x2000000 ![1, 0] ei slices_S2x2000000_S1x2000000_1_0) shapeCasts_S1x2000000_S2000000

/-- One propagation step as the reference spells it: gather the source rows, scale row k by weight k, add row k
    into its destination row. -/
def step (x : (⟨S150000x64, .f32⟩ : BufTy).Contents (Elt Ideal)) : (⟨S150000x64, .f32⟩ : BufTy).Contents (Elt Ideal) :=
  Host.scatterAdd (F := Ideal) scatter_S150000x64_S2000000x1_S2000000x64_1_0_0_1
    (broadcastInDim S150000x64 ![] bcast_S_S150000x64 (constant (F := Ideal) S_ .f32 0x00000000#32))
    (broadcastInDim S2000000x1 ![0] bcast_S2000000_S2000000x1_0
      (shapeCast _ (extractStridedSlice S1x2000000 ![0, 0] ei slices_S2x2000000_S1x2000000_0_0) shapeCasts_S1x2000000_S2000000))
    (mulf (Host.gather gather_S150000x64_S2000000x1_S2000000x64_1_0_n_n_0_1_164 x
        (broadcastInDim S2000000x1 ![0] bcast_S2000000_S2000000x1_0
          (select (cmpi .slt (src ei) (broadcastInDim S2000000 ![] bcast_S_S2000000 (constantI S_ 32 0#32)))
            (addi (src ei) (broadcastInDim S2000000 ![] bcast_S_S2000000 (constantI S_ 32 150000#32))) (src ei))))
      (broadcastInDim S2000000x64 ![0, 1] bcast_S2000000x1_S2000000x64_0_1 (broadcastInDim S2000000x1 ![0] bcast_S2000000_S2000000x1_0 w)))

/-- The stacked table. -/
abbrev table : (⟨S150000x64, .f32⟩ : BufTy).Contents (Elt Ideal) :=
  concatenate S150000x64 0 [⟨S100000x64, u⟩, ⟨S50000x64, it⟩] concatenates_S100000x64_S50000x64_S150000x64_d0

/-- The mean of the table and its three propagations, as the reference spells it. -/
def mean4 : (⟨S150000x64, .f32⟩ : BufTy).Contents (Elt Ideal) :=
  Host.divf (F := Ideal)
    (addf (addf (addf (table u it) (step ei w (table u it))) (step ei w (step ei w (table u it)))) (step ei w (step ei w (step ei w (table u it)))))
    (broadcastInDim S150000x64 ![] bcast_S_S150000x64 (constant (F := Ideal) S_ .f32 0x40800000#32))

end Reference

set_option maxRecDepth 65536 in
/-- The reference's first result is the upper 100,000 rows of the mean. -/
theorem ref_out0 (m' : (ℓ : Loc nD τ sig) → Buf (Elt Ideal) ℓ) (c : Dev nD) :
    Value.res_main_v49 (F := Ideal) m' c = extractStridedSlice S100000x64 ![0, 0]
      (mean4 (m' ((c.tc : Thread nD τ).loc main_arg0)) (m' ((c.tc : Thread nD τ).loc main_arg1)) (m' ((c.tc : Thread nD τ).loc main_arg2)) (m' ((c.tc : Thread nD τ).loc main_arg3)))
      slices_S150000x64_S100000x64_0_0 := by
  unfold Value.res_main_v49 mean4 step
  rfl

set_option maxRecDepth 65536 in
/-- The reference's second result is the lower 50,000 rows of the mean. -/
theorem ref_out1 (m' : (ℓ : Loc nD τ sig) → Buf (Elt Ideal) ℓ) (c : Dev nD) :
    Value.res_main_v50 (F := Ideal) m' c = extractStridedSlice S50000x64 ![100000, 0]
      (mean4 (m' ((c.tc : Thread nD τ).loc main_arg0)) (m' ((c.tc : Thread nD τ).loc main_arg1)) (m' ((c.tc : Thread nD τ).loc main_arg2)) (m' ((c.tc : Thread nD τ).loc main_arg3)))
      slices_S150000x64_S50000x64_100000_0 := by
  unfold Value.res_main_v50 mean4 step
  rfl

/-! ## The kernel's values are the reference's -/

/-- Spreading the weight column along rows of 64: the kernel's spelling and the reference's read the same entry. -/
theorem spread_eq (b : (⟨S2000000x1, .f32⟩ : BufTy).Contents (Elt Ideal)) (hs : Cert.KernelIdeal.S2000000x1.Broadcasts Cert.KernelIdeal.S2000000x64) :
    broadcastTo Cert.KernelIdeal.S2000000x64 b hs = broadcastInDim S2000000x64 ![0, 1] bcast_S2000000x1_S2000000x64_0_1 b := by
  funext i
  rw [Cert.KernelIdeal.Scale0.spread_all b hs i]
  exact (broadcastInDim_apply ![0, 1] bcast_S2000000x1_S2000000x64_0_1 b i (ValueIdx.ix2 (n0 := 2000000) (n1 := 1) (i 0) 0)
    (fun a => by match a with | ⟨0, _⟩ => rfl | ⟨1, _⟩ => rfl)).symm

/-- One step in the kernel's spelling (the gathered table scaled row by row) is the reference's step. -/
theorem step_eq (ei : (⟨S2x2000000, .i32⟩ : BufTy).Contents (Elt Ideal)) (w : (⟨S2000000, .f32⟩ : BufTy).Contents (Elt Ideal))
    (x : (⟨S150000x64, .f32⟩ : BufTy).Contents (Elt Ideal)) :
    Cert.KernelIdeal.Chain.scattered (F := Ideal) (Cert.KernelIdeal.Chain.rowOf ei)
      (Cert.KernelIdeal.Scale0.rowScaled (F := Ideal) (Cert.KernelIdeal.Chain.gathered (F := Ideal) x (Cert.KernelIdeal.Chain.colOf ei))
        (Cert.KernelIdeal.Chain.column (F := Ideal) w)) = step ei w x := by
  show Cert.KernelIdeal.Chain.scattered (F := Ideal) (Cert.KernelIdeal.Chain.rowOf ei)
      (mulf (F := Ideal) (Cert.KernelIdeal.Chain.gathered (F := Ideal) x (Cert.KernelIdeal.Chain.colOf ei))
        (broadcastTo Cert.KernelIdeal.S2000000x64 (Cert.KernelIdeal.Chain.column (F := Ideal) w) Cert.KernelIdeal.Scale0.spreads)) = _
  rw [spread_eq]
  unfold step
  rfl

/-- On the extended reals a sum times the constant 1 is the sum. -/
theorem sum_one (a b : FVec Ideal S150000x64 .f32) :
    (Cert.KernelIdeal.Acc1.sumTimes (F := Ideal) Cert.KernelIdeal.Chain.one a b : FVec Ideal S150000x64 .f32) = addf a b := by
  funext i
  show (a i + b i) * Ideal.ofBits .f32 0x3F800000#32 = a i + b i
  rw [Cert.Consts.ofBits_one, mul_one]

/-- On the extended reals a sum times the constant 1/4 is the sum divided by the constant 4. -/
theorem sum_quarter (a b : FVec Ideal S150000x64 .f32) :
    (Cert.KernelIdeal.Acc5.sumTimes (F := Ideal) Cert.KernelIdeal.Chain.quarter a b : FVec Ideal S150000x64 .f32)
      = Host.divf (F := Ideal) (addf a b) (broadcastInDim S150000x64 ![] bcast_S_S150000x64 (constant (F := Ideal) S_ .f32 0x40800000#32)) := by
  funext i
  show (a i + b i) * Ideal.ofBits .f32 0x3E800000#32 = Ideal.div (a i + b i) (Ideal.ofBits .f32 0x40800000#32)
  rw [Cert.Consts.ofBits_quarter, Cert.Consts.ofBits_four, Ideal.div_coe (by norm_num : (4 : ℝ) ≠ 0)]

section Kernel
variable (m : (ℓ : Loc Cert.KernelIdeal.nD Cert.KernelIdeal.τ Cert.KernelIdeal.sig) → Buf (Elt Ideal) ℓ) (c : Dev Cert.KernelIdeal.nD)

/-- The kernel program's four argument arrays. -/
abbrev edges : (⟨S2x2000000, .i32⟩ : BufTy).Contents (Elt Ideal) := m ((c.tc : Thread Cert.KernelIdeal.nD Cert.KernelIdeal.τ).loc Cert.KernelIdeal.main_arg0)
abbrev weights : (⟨S2000000, .f32⟩ : BufTy).Contents (Elt Ideal) := m ((c.tc : Thread Cert.KernelIdeal.nD Cert.KernelIdeal.τ).loc Cert.KernelIdeal.main_arg1)
abbrev users : (⟨S100000x64, .f32⟩ : BufTy).Contents (Elt Ideal) := m ((c.tc : Thread Cert.KernelIdeal.nD Cert.KernelIdeal.τ).loc Cert.KernelIdeal.main_arg2)
abbrev items : (⟨S50000x64, .f32⟩ : BufTy).Contents (Elt Ideal) := m ((c.tc : Thread Cert.KernelIdeal.nD Cert.KernelIdeal.τ).loc Cert.KernelIdeal.main_arg3)
/-- The stacked table and the three propagated tables, in the reference's spelling over the kernel's arguments. -/
abbrev t0 : FVec Ideal S150000x64 .f32 := table (users m c) (items m c)
abbrev t1 : FVec Ideal S150000x64 .f32 := step (edges m c) (weights m c) (t0 m c)
abbrev t2 : FVec Ideal S150000x64 .f32 := step (edges m c) (weights m c) (t1 m c)
abbrev t3 : FVec Ideal S150000x64 .f32 := step (edges m c) (weights m c) (t2 m c)

theorem x1_eq : Cert.KernelIdeal.Chain.x1 (F := Ideal) m c = t1 m c := step_eq (edges m c) (weights m c) (t0 m c)
theorem x2_eq : Cert.KernelIdeal.Chain.x2 (F := Ideal) m c = t2 m c := by
  show Cert.KernelIdeal.Chain.scattered (Cert.KernelIdeal.Chain.row m c)
      (Cert.KernelIdeal.Scale2.rowScaled (Cert.KernelIdeal.Chain.gathered (Cert.KernelIdeal.Chain.x1 m c) (Cert.KernelIdeal.Chain.col m c)) (Cert.KernelIdeal.Chain.wc m c)) = _
  rw [x1_eq]
  exact step_eq (edges m c) (weights m c) (t1 m c)
theorem x3_eq : Cert.KernelIdeal.Chain.x3 (F := Ideal) m c = t3 m c := by
  show Cert.KernelIdeal.Chain.scattered (Cert.KernelIdeal.Chain.row m c)
      (Cert.KernelIdeal.Scale4.rowScaled (Cert.KernelIdeal.Chain.gathered (Cert.KernelIdeal.Chain.x2 m c) (Cert.KernelIdeal.Chain.col m c)) (Cert.KernelIdeal.Chain.wc m c)) = _
  rw [x2_eq]
  exact step_eq (edges m c) (weights m c) (t2 m c)
theorem a1_eq : Cert.KernelIdeal.Chain.a1 (F := Ideal) m c = addf (t0 m c) (t1 m c) := by
  show Cert.KernelIdeal.Acc1.sumTimes Cert.KernelIdeal.Chain.one (Cert.KernelIdeal.Chain.e0 m c) (Cert.KernelIdeal.Chain.x1 m c) = _
  rw [x1_eq]
  exact sum_one (t0 m c) (t1 m c)
theorem a2_eq : Cert.KernelIdeal.Chain.a2 (F := Ideal) m c = addf (addf (t0 m c) (t1 m c)) (t2 m c) := by
  show Cert.KernelIdeal.Acc3.sumTimes Cert.KernelIdeal.Chain.one (Cert.KernelIdeal.Chain.a1 m c) (Cert.KernelIdeal.Chain.x2 m c) = _
  rw [a1_eq, x2_eq]
  exact sum_one (addf (t0 m c) (t1 m c)) (t2 m c)

/-- The kernel's last running total is the reference's mean of the same four argument arrays. -/
theorem kernel_mean : Cert.KernelIdeal.Chain.a3 (F := Ideal) m c = mean4 (edges m c) (weights m c) (users m c) (items m c) := by
  show Cert.KernelIdeal.Acc5.sumTimes Cert.KernelIdeal.Chain.quarter (Cert.KernelIdeal.Chain.a2 m c) (Cert.KernelIdeal.Chain.x3 m c) = _
  rw [a2_eq, x3_eq]
  unfold mean4
  exact sum_quarter (addf (addf (t0 m c) (t1 m c)) (t2 m c)) (t3 m c)

end Kernel

end Cert.ReferenceIdeal.Bridge

end
-- ==== Proof.lean ====
/-
  Three rounds of weighted neighbourhood averaging on a bipartite graph: with e the user rows stacked above the item
  rows, and one round x ↦ scatter ((gather x) · w) — take for every edge the row of its source, scale it by the
  edge's weight, add it into the row of its destination — the kernel returns the upper and the lower rows of
  ((((e + x1) · 1 + x2) · 1) + x3) · (1/4) and the reference those of (((e + x1) + x2) + x3) / 4, where x1, x2, x3
  are the three rounds. On the extended reals y · 1 = y and y · (1/4) = y / 4 for every y, so the results agree on
  every input: the precondition is not used by the value claim.
  The gathers and the scatter-adds are the same host operations in both programs; the kernel's two kinds of launch
  (scale a block of rows by its weights; add two blocks and multiply by a constant) each leave their whole result
  array as one entrywise function of their operands (modules Scale0/2/4 and Acc1/3/5), the run names the result
  buffers at the last boundary's contents (module RunNamed), those contents are read back boundary by boundary
  (module Chain), and module Bridge joins them to the reference's term.
-/
import proofs.«113412_j12257836662828_1_alg».proof.Defs
import proofs.«113412_j12257836662828_1_alg».proof.Proof.Gen.Kernel
import proofs.«113412_j12257836662828_1_alg».proof.Proof.Gen.Kernel.Skeleton
import proofs.«113412_j12257836662828_1_alg».proof.Proof.Gen.Kernel.Launch
import proofs.«113412_j12257836662828_1_alg».proof.Proof.Gen.Kernel.Points
import proofs.«113412_j12257836662828_1_alg».proof.Proof.Gen.Kernel.Frame
import proofs.«113412_j12257836662828_1_alg».proof.Proof.Gen.KernelIdeal
import proofs.«113412_j12257836662828_1_alg».proof.Proof.Gen.KernelIdeal.Skeleton
import proofs.«113412_j12257836662828_1_alg».proof.Proof.Gen.KernelIdeal.Launch
import proofs.«113412_j12257836662828_1_alg».proof.Proof.Gen.KernelIdeal.Points
import proofs.«113412_j12257836662828_1_alg».proof.Proof.Gen.KernelIdeal.Frame
import proofs.«113412_j12257836662828_1_alg».proof.Proof.Gen.ReferenceIdeal
import proofs.«113412_j12257836662828_1_alg».proof.Proof.Gen.Pre_finite_inputs
import proofs.«113412_j12257836662828_1_alg».proof.Proof.Gen.ReferenceIdeal.Run
import proofs.«113412_j12257836662828_1_alg».proof.Proof.RunNamed
import proofs.«113412_j12257836662828_1_alg».proof.Proof.Chain
import proofs.«113412_j12257836662828_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with the upper and the lower rows of the same mean of the stacked table and its three rounds. -/
theorem algebraic : Cert.algebraic_KernelIdeal_ReferenceIdeal := by
  intro m ρ m' ρ' _ hagree
  refine ⟨fun c => extractStridedSlice Cert.KernelIdeal.S100000x64 ![0, 0] (Cert.KernelIdeal.Chain.a3 (F := Ideal) m c) Cert.KernelIdeal.Gen.slices_S150000x64_S100000x64_0_0,
    fun c => extractStridedSlice Cert.KernelIdeal.S50000x64 ![100000, 0] (Cert.KernelIdeal.Chain.a3 (F := Ideal) m c) Cert.KernelIdeal.Gen.slices_S150000x64_S50000x64_100000_0, ?_, ?_⟩
  · exact (θ_run Cert.KernelIdeal.defs _ _).mono
      (fun r h c => ⟨(h c).1.trans (Cert.KernelIdeal.Chain.W13_v42 m ρ c), (h c).2.1.trans (Cert.KernelIdeal.Chain.W13_v43 m ρ c), (h c).2.2⟩)
      (Cert.KernelIdeal.RunNamed.run (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Bridge.ref_out0, (hagree c).1, (hagree c).2.1, (hagree c).2.2.1, (hagree c).2.2.2,
        ← Cert.ReferenceIdeal.Bridge.kernel_mean m c]
    · rw [Cert.ReferenceIdeal.Bridge.ref_out1, (hagree c).1, (hagree c).2.1, (hagree c).2.2.1, (hagree c).2.2.2,
        ← Cert.ReferenceIdeal.Bridge.kernel_mean m c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
